-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_v14) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x2048x64 : Shape := ⟨3, ![32, 2048, 64]⟩
abbrev S32x2048x2048 : Shape := ⟨3, ![32, 2048, 2048]⟩
abbrev S_ : Shape := ⟨0, ![]⟩
abbrev S32x2048 : Shape := ⟨2, ![32, 2048]⟩

class Facts : Prop where
  bcast_S_S32x2048x64 : S_.BroadcastsInDim S32x2048x64 (![] : Fin 0 → Fin S32x2048x64.rank)
  reducesTo_S32x2048x64_S_d0_1_2 : S32x2048x64.ReducesTo [0, 1, 2] S_
  h_S_ : 0 < S_.numel
  reducesTo_S32x2048x2048_S32x2048_d2 : S32x2048x2048.ReducesTo [2] S32x2048
  reducesTo_S32x2048_S_d0_1 : S32x2048.ReducesTo [0, 1] S_

variable [Facts]

def fn_part1 {F : FTy → Type} [FloatOps F] (main_v13 : IVec S_ 1) (main_v15 : IVec S32x2048 1) (main_c_5 : IVec S_ 1) : IVec S_ 1 :=
  let main_v16 : IVec S_ 1 := (fun x v => Host.reduce IntOp.andi x v reducesTo_S32x2048_S_d0_1 h_S_) main_v15 main_c_5
  let main_v17 : IVec S_ 1 := andi main_v13 main_v16
  main_v17

def fn {F : FTy → Type} [FloatOps F] (main_arg0 : FVec F S32x2048x64 .f32) (main_arg1 : FVec F S32x2048x64 .f32) (main_arg2 : FVec F S32x2048x64 .f32) (main_arg3 : IVec S32x2048x2048 1) : IVec S_ 1 :=
  let main_v0 : FVec F S32x2048x64 .f32 := Host.absf main_arg0
  let main_cst : FVec F S_ .f32 := constant S_ .f32 0x7F800000#32
  let main_v1 : FVec F S32x2048x64 .f32 := broadcastInDim S32x2048x64 ![] bcast_S_S32x2048x64 main_cst
  let main_v2 : IVec S32x2048x64 1 := cmpf .olt main_v0 main_v1
  let main_c : IVec S_ 1 := constantI S_ 1 1#1
  let main_v3 : IVec S_ 1 := (fun x v => Host.reduce IntOp.andi x v reducesTo_S32x2048x64_S_d0_1_2 h_S_) main_v2 main_c
  let main_v4 : FVec F S32x2048x64 .f32 := Host.absf main_arg1
  let main_cst_0 : FVec F S_ .f32 := constant S_ .f32 0x7F800000#32
  let main_v5 : FVec F S32x2048x64 .f32 := broadcastInDim S32x2048x64 ![] bcast_S_S32x2048x64 main_cst_0
  let main_v6 : IVec S32x2048x64 1 := cmpf .olt main_v4 main_v5
  let main_c_1 : IVec S_ 1 := constantI S_ 1 1#1
  let main_v7 : IVec S_ 1 := (fun x v => Host.reduce IntOp.andi x v reducesTo_S32x2048x64_S_d0_1_2 h_S_) main_v6 main_c_1
  let main_v8 : IVec S_ 1 := andi main_v3 main_v7
  let main_v9 : FVec F S32x2048x64 .f32 := Host.absf main_arg2
  let main_cst_2 : FVec F S_ .f32 := constant S_ .f32 0x7F800000#32
  let main_v10 : FVec F S32x2048x64 .f32 := broadcastInDim S32x2048x64 ![] bcast_S_S32x2048x64 main_cst_2
  let main_v11 : IVec S32x2048x64 1 := cmpf .olt main_v9 main_v10
  let main_c_3 : IVec S_ 1 := constantI S_ 1 1#1
  let main_v12 : IVec S_ 1 := (fun x v => Host.reduce IntOp.andi x v reducesTo_S32x2048x64_S_d0_1_2 h_S_) main_v11 main_c_3
  let main_v13 : IVec S_ 1 := andi main_v8 main_v12
  let main_v14 : IVec S32x2048x2048 1 := noti main_arg3
  let main_c_4 : IVec S_ 1 := constantI S_ 1 0#1
  let main_v15 : IVec S32x2048 1 := (fun x v => Host.reduce IntOp.ori x v reducesTo_S32x2048x2048_S32x2048_d2 h_S_) main_v14 main_c_4
  let main_c_5 : IVec S_ 1 := constantI S_ 1 1#1
  fn_part1 (F := F) main_v13 main_v15 main_c_5
-- ==== Kernel.lean ====
abbrev S32x2048x64 : Shape := ⟨3, ![32, 2048, 64]⟩
abbrev S32x2048x2048 : Shape := ⟨3, ![32, 2048, 2048]⟩
abbrev S1x512x64 : Shape := ⟨3, ![1, 512, 64]⟩
abbrev S1x2048x64 : Shape := ⟨3, ![1, 2048, 64]⟩
abbrev S1x512x2048 : Shape := ⟨3, ![1, 512, 2048]⟩
abbrev S512x64 : Shape := ⟨2, ![512, 64]⟩
abbrev S2048x64 : Shape := ⟨2, ![2048, 64]⟩
abbrev S512x2048 : Shape := ⟨2, ![512, 2048]⟩
abbrev S512 : Shape := ⟨1, ![512]⟩
abbrev S512x1 : Shape := ⟨2, ![512, 1]⟩

abbrev nBuf : Space → Nat
  | .hbm => 7
  | .vmem => 12
  | .smem => 0
  | _ => 0

abbrev bufTy : (tb : Table) → Fin (tcTables nBuf tb) → BufTy
  | .hbm, ⟨0, _⟩ => ⟨S32x2048x64, .f32⟩
  | .hbm, ⟨1, _⟩ => ⟨S32x2048x64, .f32⟩
  | .hbm, ⟨2, _⟩ => ⟨S32x2048x64, .f32⟩
  | .hbm, ⟨3, _⟩ => ⟨S32x2048x2048, .i1⟩
  | .hbm, ⟨4, _⟩ => ⟨S32x2048x2048, .i32⟩
  | .hbm, ⟨5, _⟩ => ⟨S32x2048x64, .f32⟩
  | .hbm, ⟨6, _⟩ => ⟨S32x2048x2048, .f32⟩
  | .local _ .vmem, ⟨0, _⟩ => ⟨S1x512x64, .f32⟩
  | .local _ .vmem, ⟨1, _⟩ => ⟨S1x512x64, .f32⟩
  | .local _ .vmem, ⟨2, _⟩ => ⟨S1x2048x64, .f32⟩
  | .local _ .vmem, ⟨3, _⟩ => ⟨S1x2048x64, .f32⟩
  | .local _ .vmem, ⟨4, _⟩ => ⟨S1x2048x64, .f32⟩
  | .local _ .vmem, ⟨5, _⟩ => ⟨S1x2048x64, .f32⟩
  | .local _ .vmem, ⟨6, _⟩ => ⟨S1x512x2048, .i32⟩
  | .local _ .vmem, ⟨7, _⟩ => ⟨S1x512x2048, .i32⟩
  | .local _ .vmem, ⟨8, _⟩ => ⟨S1x512x64, .f32⟩
  | .local _ .vmem, ⟨9, _⟩ => ⟨S1x512x64, .f32⟩
  | .local _ .vmem, ⟨10, _⟩ => ⟨S1x512x2048, .f32⟩
  | .local _ .vmem, ⟨11, _⟩ => ⟨S1x512x2048, .f32⟩
  | _, _ => ⟨S32x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![32, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x2048 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  natLt_1_32 : 1 < 32
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  bitsLt_bf16_f32 : FTy.bits .bf16 < FTy.bits .f32
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  reduces_S512x2048_S512 : S512x2048.Reduces [1] S512
  shapeCasts_S512_S512x1 : S512.ShapeCasts S512x1
  broadcasts_S512x1_S512x2048 : S512x1.Broadcasts S512x2048
  broadcasts_S512x1_S512x64 : S512x1.Broadcasts S512x64
  shapeCasts_S512x64_S1x512x64 : S512x64.ShapeCasts S1x512x64
  shapeCasts_S512x2048_S1x512x2048 : S512x2048.ShapeCasts S1x512x2048
  dot_S512x64_S2048x64_S512x2048_1_1_0_0_n_n_wf : DotDims.WF S512x64 S2048x64 S512x2048 [1] [1] [0] [0] [] []
  dot_S512x2048_S2048x64_S512x64_1_0_0_1_n_n_wf : DotDims.WF S512x2048 S2048x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x64.size a ≤ S32x2048x64.size a
  hwx0_0 : ∀ i : grid0.Coords, EltTy.bits .f32 = 32 ∨ (Rect.block (s := S32x2048x64) S1x512x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x64.size a ≤ S32x2048x64.size a
  hwx0_1 : ∀ i : grid0.Coords, EltTy.bits .f32 = 32 ∨ (Rect.block (s := S32x2048x64) S1x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x64.size a ≤ S32x2048x64.size a
  hwx0_2 : ∀ i : grid0.Coords, EltTy.bits .f32 = 32 ∨ (Rect.block (s := S32x2048x64) S1x2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x2048.size a ≤ S32x2048x2048.size a
  hwx0_3 : ∀ i : grid0.Coords, EltTy.bits .i32 = 32 ∨ (Rect.block (s := S32x2048x2048) S1x512x2048.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x64.size a ≤ S32x2048x64.size a
  hwx0_4 : ∀ i : grid0.Coords, EltTy.bits .f32 = 32 ∨ (Rect.block (s := S32x2048x64) S1x512x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512x2048.size a ≤ S32x2048x2048.size a
  hwx0_5 : ∀ i : grid0.Coords, EltTy.bits .f32 = 32 ∨ (Rect.block (s := S32x2048x2048) S1x512x2048.size (cc0_transform_5 i) (hinb0_5 i)).WholeWords (EltTy.packing .f32)

variable [Facts₀]

def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_arg0) S1x512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x512x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_0) S1x512x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1_1) S1x512x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S32x2048x64 : Shape := ⟨3, ![32, 2048, 64]⟩
abbrev S32x2048x2048 : Shape := ⟨3, ![32, 2048, 2048]⟩
abbrev S_ : Shape := ⟨0, ![]⟩
abbrev S32x2048 : Shape := ⟨2, ![32, 2048]⟩
abbrev S32x2048x1 : Shape := ⟨3, ![32, 2048, 1]⟩

abbrev nBuf : Space → Nat
  | .hbm => 27
  | .vmem => 0
  | .smem => 0
  | _ => 0

abbrev bufTy : (tb : Table) → Fin (tcTables nBuf tb) → BufTy
  | .hbm, ⟨0, _⟩ => ⟨S32x2048x64, .f32⟩
  | .hbm, ⟨1, _⟩ => ⟨S32x2048x64, .f32⟩
  | .hbm, ⟨2, _⟩ => ⟨S32x2048x64, .f32⟩
  | .hbm, ⟨3, _⟩ => ⟨S32x2048x2048, .i1⟩
  | .hbm, ⟨4, _⟩ => ⟨S32x2048x2048, .f32⟩
  | .hbm, ⟨5, _⟩ => ⟨S_, .f32⟩
  | .hbm, ⟨6, _⟩ => ⟨S32x2048x2048, .f32⟩
  | .hbm, ⟨7, _⟩ => ⟨S32x2048x2048, .f32⟩
  | .hbm, ⟨8, _⟩ => ⟨S_, .f32⟩
  | .hbm, ⟨9, _⟩ => ⟨S_, .f32⟩
  | .hbm, ⟨10, _⟩ => ⟨S32x2048x2048, .f32⟩
  | .hbm, ⟨11, _⟩ => ⟨S32x2048x2048, .f32⟩
  | .hbm, ⟨12, _⟩ => ⟨S_, .f32⟩
  | .hbm, ⟨13, _⟩ => ⟨S32x2048, .f32⟩
  | .hbm, ⟨14, _⟩ => ⟨S_, .f32⟩
  | .hbm, ⟨15, _⟩ => ⟨S32x2048, .f32⟩
  | .hbm, ⟨16, _⟩ => ⟨S32x2048, .f32⟩
  | .hbm, ⟨17, _⟩ => ⟨S32x2048x1, .f32⟩
  | .hbm, ⟨18, _⟩ => ⟨S32x2048x2048, .f32⟩
  | .hbm, ⟨19, _⟩ => ⟨S32x2048x2048, .f32⟩
  | .hbm, ⟨20, _⟩ => ⟨S32x2048x2048, .f32⟩
  | .hbm, ⟨21, _⟩ => ⟨S_, .f32⟩
  | .hbm, ⟨22, _⟩ => ⟨S32x2048, .f32⟩
  | .hbm, ⟨23, _⟩ => ⟨S32x2048x1, .f32⟩
  | .hbm, ⟨24, _⟩ => ⟨S32x2048x2048, .f32⟩
  | .hbm, ⟨25, _⟩ => ⟨S32x2048x2048, .f32⟩
  | .hbm, ⟨26, _⟩ => ⟨S32x2048x64, .f32⟩
  | _, _ => ⟨S32x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_call0_v0 : Ref sig .tc := ⟨.hbm, 9, rfl⟩
abbrev main_call0_v1 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_cst_2 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩

abbrev nD : Nat := 1
abbrev τ : Topo := Topo.v7x

variable {F : FTy → Type} [FloatOps F]

class Facts₀ : Prop where
  bcast_S_S32x2048x2048 : S_.BroadcastsInDim S32x2048x2048 (![] : Fin 0 → Fin S32x2048x2048.rank)
  reducesTo_S32x2048x2048_S32x2048_d2 : S32x2048x2048.ReducesTo [2] S32x2048
  h_S_ : 0 < S_.numel
  bcast_S_S32x2048 : S_.BroadcastsInDim S32x2048 (![] : Fin 0 → Fin S32x2048.rank)
  bcast_S32x2048_S32x2048x1_0_1 : S32x2048.BroadcastsInDim S32x2048x1 (![0, 1] : Fin 2 → Fin S32x2048x1.rank)
  bcast_S32x2048x1_S32x2048x2048_0_1_2 : S32x2048x1.BroadcastsInDim S32x2048x2048 (![0, 1, 2] : Fin 3 → Fin S32x2048x2048.rank)
  dot_S32x2048x64_S32x2048x64_S32x2048x2048_2_2_1_1_0_0_wf : DotDims.WF S32x2048x64 S32x2048x64 S32x2048x2048 [2] [2] [1] [1] [0] [0]
  dot_S32x2048x2048_S32x2048x64_S32x2048x64_2_1_1_2_0_0_wf : DotDims.WF S32x2048x2048 S32x2048x64 S32x2048x64 [2] [1] [1] [2] [0] [0]

variable [Facts₀]

def dot_S32x2048x64_S32x2048x64_S32x2048x2048_2_2_1_1_0_0 : DotDims S32x2048x64 S32x2048x64 S32x2048x2048 where
  lhsContracting := [2]
  rhsContracting := [2]
  lhsNonContracting := [1]
  rhsNonContracting := [1]
  lhsBatch := [0]
  rhsBatch := [0]
  wf := dot_S32x2048x64_S32x2048x64_S32x2048x2048_2_2_1_1_0_0_wf
def dot_S32x2048x2048_S32x2048x64_S32x2048x64_2_1_1_2_0_0 : DotDims S32x2048x2048 S32x2048x64 S32x2048x64 where
  lhsContracting := [2]
  rhsContracting := [1]
  lhsNonContracting := [1]
  rhsNonContracting := [2]
  lhsBatch := [0]
  rhsBatch := [0]
  wf := dot_S32x2048x2048_S32x2048x64_S32x2048x64_2_1_1_2_0_0_wf

class Facts : Prop extends Facts₀ where

variable [Facts]
-- ==== Proof.Spec.lean ====
/-
  Scaled dot-product attention with a boolean mask, one query row at a time, on the extended reals.

  For a query row with scores s k (k over the 2048 keys; a masked key's score is -∞) let
      μ = max_k s k,   p k = exp (s k - μ),   ℓ = Σ_k p k.
  The kernel forms the reciprocal 1/ℓ once and multiplies: its softmax entry is p k · (1/ℓ) and its output
  entry (Σ_k p k · v k) · (1/ℓ). The reference divides entry by entry: p k / ℓ and Σ_k (p k / ℓ) · v k.
  This module names both forms over one row and lays them out over the arrays; that the two agree is
  Proof/RowLaw.lean.
-/
import Idealize.ShloMosaic.PureOps.Ideal
import Idealize.ShloMosaic.Lib.ValueIdx

noncomputable section

open scoped BigOperators

namespace Cert.Attn

open Idealize.ShloMosaic Idealize.ShloMosaic.ValueIdx

/-- The shape of q, k, v and of the output: batch × position × feature. -/
abbrev SQ : Shape := ⟨3, ![32, 2048, 64]⟩
/-- The shape of the mask and of the softmax: batch × query × key. -/
abbrev SA : Shape := ⟨3, ![32, 2048, 2048]⟩

/-! ## One query row -/

/-- The row's scores: the scaled inner product of the query with each key, -∞ where the key is masked out. -/
def rowScore (q : Fin 64 → EReal) (K : Fin 2048 → Fin 64 → EReal) (msk : Fin 2048 → BitVec 1) (k : Fin 2048) : EReal :=
  Scalar.select (msk k) ⊥ ((∑ d : Fin 64, q d * K k d) * ((1 / 8 : ℝ) : EReal))

/-- The row's largest score (from -∞). -/
def rowMax (s : Fin 2048 → EReal) : EReal := (Finset.univ : Finset (Fin 2048)).fold max ⊥ s

/-- The shifted exponentials. -/
def rowP (s : Fin 2048 → EReal) (k : Fin 2048) : EReal := Ideal.exp (s k - rowMax s)

/-- Their sum. -/
def rowL (s : Fin 2048 → EReal) : EReal := ∑ k : Fin 2048, rowP s k

/-- The softmax entry, reciprocal first (the kernel's form). -/
def attnK (s : Fin 2048 → EReal) (k : Fin 2048) : EReal := rowP s k * Ideal.div 1 (rowL s)

/-- The softmax entry, divided entry by entry (the reference's form). -/
def attnR (s : Fin 2048 → EReal) (k : Fin 2048) : EReal := Ideal.div (rowP s k) (rowL s)

/-- The output entry against one column v of values, scaled after the contraction (the kernel's form). -/
def outK (s : Fin 2048 → EReal) (v : Fin 2048 → EReal) : EReal := (∑ k : Fin 2048, rowP s k * v k) * Ideal.div 1 (rowL s)

/-- The output entry, the contraction of the divided softmax row with the column (the reference's form). -/
def outR (s : Fin 2048 → EReal) (v : Fin 2048 → EReal) : EReal := ∑ k : Fin 2048, attnR s k * v k

/-! ## Over the arrays -/

variable (Q K V : SQ.Idx → EReal) (M : SA.Idx → BitVec 1)

/-- The scores of query i of batch b. -/
def scoreRow (b : Fin 32) (i : Fin 2048) : Fin 2048 → EReal :=
  rowScore (fun d => Q (ix3 b i d)) (fun k d => K (ix3 b k d)) (fun k => M (ix3 b i k))

/-- Feature d of the values of batch b, as a column over the keys. -/
def valCol (b : Fin 32) (d : Fin 64) : Fin 2048 → EReal := fun k => V (ix3 b k d)

/-- The softmax array, the kernel's form. -/
def attnArrK : SA.Idx → EReal := fun j => attnK (scoreRow Q K M (j 0) (j 1)) (j 2)
/-- The softmax array, the reference's form. -/
def attnArrR : SA.Idx → EReal := fun j => attnR (scoreRow Q K M (j 0) (j 1)) (j 2)
/-- The output array, the kernel's form. -/
def outArrK : SQ.Idx → EReal := fun j => outK (scoreRow Q K M (j 0) (j 1)) (valCol V (j 0) (j 2))
/-- The output array, the reference's form. -/
def outArrR : SQ.Idx → EReal := fun j => outR (scoreRow Q K M (j 0) (j 1)) (valCol V (j 0) (j 2))

end Cert.Attn

end
-- ==== Proof.RowLaw.lean ====
/-
  The two forms of the softmax row agree.

  Let the scores of a row be real or -∞, at least one of them real. Then μ = max s is real, every p k = exp (s k - μ)
  is a real in [0, 1] (0 exactly at the masked keys) and ℓ = Σ p k is a real ≥ 1, in particular not 0. So
  1/ℓ is the real ℓ⁻¹, p k · (1/ℓ) = p k / ℓ, and against a column of real values the factor ℓ⁻¹ moves through the
  finite sum: (Σ p k · v k) · ℓ⁻¹ = Σ (p k · ℓ⁻¹) · v k, by distributivity in ℝ.
-/
import proofs.«428668_j5308579578425_3_alg».proof.Proof.Spec

noncomputable section

open scoped BigOperators

namespace Cert.Attn

open Idealize.ShloMosaic Idealize.ShloMosaic.ValueIdx

/-- The coercion ℝ → EReal of a finite sum is the sum of the coercions. -/
theorem coe_finsum {ι : Type} (t : Finset ι) (f : ι → ℝ) :
    ((∑ i ∈ t, f i : ℝ) : EReal) = ∑ i ∈ t, (f i : EReal) := by
  classical
  refine Finset.induction_on t ?_ ?_
  · rw [Finset.sum_empty, Finset.sum_empty, EReal.coe_zero]
  · intro a t ha ih
    rw [Finset.sum_insert ha, Finset.sum_insert ha, EReal.coe_add, ih]

/-! ## One row -/

/-- The maximum of a row of scores, each real or -∞ and one of them real, is real: it is below +∞ because every
    score is, and above the real score. -/
theorem rowMax_real (s : Fin 2048 → EReal) (hs : ∀ k, s k = ⊥ ∨ ∃ r : ℝ, s k = (r : EReal))
    (h1 : ∃ k, ∃ r : ℝ, s k = (r : EReal)) : ∃ m : ℝ, rowMax s = (m : EReal) := by
  have htop : rowMax s ≠ ⊤ := by
    refine ne_of_lt ?_
    unfold rowMax
    rw [Finset.fold_max_lt]
    refine ⟨bot_lt_top, fun k _ => ?_⟩
    rcases hs k with h | ⟨r, h⟩
    · rw [h]; exact bot_lt_top
    · rw [h]; exact EReal.coe_lt_top r
  have hbot : rowMax s ≠ ⊥ := by
    obtain ⟨k0, r0, h0⟩ := h1
    have hle : s k0 ≤ rowMax s := by
      unfold rowMax
      rw [Finset.le_fold_max]
      exact Or.inr ⟨k0, Finset.mem_univ k0, le_refl _⟩
    rw [h0] at hle
    exact ne_of_gt (lt_of_lt_of_le (EReal.bot_lt_coe r0) hle)
  exact ⟨(rowMax s).toReal, (EReal.coe_toReal htop hbot).symm⟩

/-- The shifted exponentials of such a row are reals and so is their sum, which is not 0: each is exp of a real
    difference, hence positive, or exp (-∞) = 0, and the one at the real score is positive. -/
theorem rowP_real (s : Fin 2048 → EReal) (hs : ∀ k, s k = ⊥ ∨ ∃ r : ℝ, s k = (r : EReal))
    (h1 : ∃ k, ∃ r : ℝ, s k = (r : EReal)) :
    ∃ (f : Fin 2048 → ℝ) (L : ℝ), (∀ k, rowP s k = (f k : EReal)) ∧ rowL s = (L : EReal) ∧ L ≠ 0 := by
  obtain ⟨m, hm⟩ := rowMax_real s hs h1
  have hp : ∀ k, ∃ y : ℝ, rowP s k = (y : EReal) ∧ 0 ≤ y ∧ ((∃ r : ℝ, s k = (r : EReal)) → 0 < y) := by
    intro k
    rcases hs k with h | ⟨r, h⟩
    · refine ⟨0, ?_, le_refl _, ?_⟩
      · unfold rowP
        rw [h, EReal.bot_sub, Ideal.exp_bot, EReal.coe_zero]
      · rintro ⟨r, hr⟩
        rw [h] at hr
        exact absurd hr.symm (EReal.coe_ne_bot r)
    · refine ⟨Real.exp (r - m), ?_, (Real.exp_pos _).le, fun _ => Real.exp_pos _⟩
      unfold rowP
      rw [h, hm, ← EReal.coe_sub, Ideal.exp_coe]
  choose f hf using hp
  refine ⟨f, ∑ k, f k, fun k => (hf k).1, ?_, ?_⟩
  · unfold rowL
    rw [coe_finsum]
    exact Finset.sum_congr rfl (fun k _ => (hf k).1)
  · obtain ⟨k0, h0⟩ := h1
    exact ne_of_gt (Finset.sum_pos' (fun k _ => (hf k).2.1) ⟨k0, Finset.mem_univ k0, (hf k0).2.2 h0⟩)

/-- One softmax entry: with ℓ a nonzero real, p · (1/ℓ) and p / ℓ are both p · ℓ⁻¹. -/
theorem attn_row_eq (s : Fin 2048 → EReal) (hs : ∀ k, s k = ⊥ ∨ ∃ r : ℝ, s k = (r : EReal))
    (h1 : ∃ k, ∃ r : ℝ, s k = (r : EReal)) (k : Fin 2048) : attnK s k = attnR s k := by
  obtain ⟨f, L, _, hL, hne⟩ := rowP_real s hs h1
  unfold attnK attnR
  rw [hL, Ideal.div_coe hne, Ideal.div_coe hne, one_mul]

/-- One output entry against a real column: both forms are the coercion of a real expression, and in ℝ the factor
    ℓ⁻¹ moves through the finite sum. -/
theorem out_row_eq (s : Fin 2048 → EReal) (hs : ∀ k, s k = ⊥ ∨ ∃ r : ℝ, s k = (r : EReal))
    (h1 : ∃ k, ∃ r : ℝ, s k = (r : EReal)) (v : Fin 2048 → EReal) (hv : ∀ k, ∃ r : ℝ, v k = (r : EReal)) :
    outK s v = outR s v := by
  obtain ⟨f, L, hf, hL, hne⟩ := rowP_real s hs h1
  choose w hw using hv
  have hl : outK s v = (((∑ k, f k * w k) * (1 / L) : ℝ) : EReal) := by
    unfold outK
    rw [hL, Ideal.div_coe hne, one_mul, EReal.coe_mul, coe_finsum]
    refine congrArg (· * ((1 / L : ℝ) : EReal)) (Finset.sum_congr rfl (fun k _ => ?_))
    rw [hf k, hw k, EReal.coe_mul]
  have hr : outR s v = ((∑ k, f k * (1 / L) * w k : ℝ) : EReal) := by
    unfold outR
    rw [coe_finsum]
    refine Finset.sum_congr rfl (fun k _ => ?_)
    unfold attnR
    rw [hL, Ideal.div_coe hne, hf k, hw k, EReal.coe_mul, EReal.coe_mul]
  rw [hl, hr, Finset.sum_mul]
  exact congrArg _ (Finset.sum_congr rfl (fun k _ => mul_right_comm _ _ _))

/-! ## The scores -/

/-- A score over a real query and real keys is -∞ (masked) or real (unmasked): the inner product of reals, scaled,
    is the coercion of a real. -/
theorem rowScore_real (q : Fin 64 → EReal) (K : Fin 2048 → Fin 64 → EReal) (msk : Fin 2048 → BitVec 1)
    (hq : ∀ d, ∃ r : ℝ, q d = (r : EReal)) (hK : ∀ k d, ∃ r : ℝ, K k d = (r : EReal)) (k : Fin 2048) :
    (rowScore q K msk k = ⊥ ∨ ∃ r : ℝ, rowScore q K msk k = (r : EReal))
      ∧ (msk k = 0#1 → ∃ r : ℝ, rowScore q K msk k = (r : EReal)) := by
  choose qr hqr using hq
  choose kr hkr using hK
  have hreal : (∑ d : Fin 64, q d * K k d) * ((1 / 8 : ℝ) : EReal)
      = (((∑ d : Fin 64, qr d * kr k d) * (1 / 8) : ℝ) : EReal) := by
    rw [EReal.coe_mul, coe_finsum]
    refine congrArg (· * ((1 / 8 : ℝ) : EReal)) (Finset.sum_congr rfl (fun d _ => ?_))
    rw [hqr d, hkr k d, EReal.coe_mul]
  unfold rowScore Scalar.select
  rcases BitVec.eq_zero_or_eq_one (msk k) with h | h
  · rw [h, if_neg (by decide), hreal]
    exact ⟨Or.inr ⟨_, rfl⟩, fun _ => ⟨_, rfl⟩⟩
  · rw [h, if_pos (by decide)]
    exact ⟨Or.inl rfl, fun h0 => absurd h0 (by decide)⟩

/-- The rows of the arrays: real or -∞ everywhere. -/
theorem scoreRow_cases (Q K : SQ.Idx → EReal) (M : SA.Idx → BitVec 1)
    (hQ : ∀ j, ∃ r : ℝ, Q j = (r : EReal)) (hK : ∀ j, ∃ r : ℝ, K j = (r : EReal)) (b : Fin 32) (i : Fin 2048) :
    ∀ k, scoreRow Q K M b i k = ⊥ ∨ ∃ r : ℝ, scoreRow Q K M b i k = (r : EReal) := fun k =>
  (rowScore_real _ _ _ (fun d => hQ (ix3 b i d)) (fun k d => hK (ix3 b k d)) k).1

/-- The rows of the arrays: real at the unmasked key. -/
theorem scoreRow_one (Q K : SQ.Idx → EReal) (M : SA.Idx → BitVec 1)
    (hQ : ∀ j, ∃ r : ℝ, Q j = (r : EReal)) (hK : ∀ j, ∃ r : ℝ, K j = (r : EReal))
    (hM : ∀ (b : Fin 32) (i : Fin 2048), ∃ k : Fin 2048, M (ix3 b i k) = 0#1) (b : Fin 32) (i : Fin 2048) :
    ∃ k, ∃ r : ℝ, scoreRow Q K M b i k = (r : EReal) := by
  obtain ⟨k, hk⟩ := hM b i
  exact ⟨k, (rowScore_real _ _ _ (fun d => hQ (ix3 b i d)) (fun k d => hK (ix3 b k d)) k).2 hk⟩

/-! ## Over the arrays -/

/-- Over the arrays: with q, k real and an unmasked key in every row, the softmax arrays agree. -/
theorem attnArr_eq (Q K : SQ.Idx → EReal) (M : SA.Idx → BitVec 1)
    (hQ : ∀ j, ∃ r : ℝ, Q j = (r : EReal)) (hK : ∀ j, ∃ r : ℝ, K j = (r : EReal))
    (hM : ∀ (b : Fin 32) (i : Fin 2048), ∃ k : Fin 2048, M (ix3 b i k) = 0#1) :
    attnArrK Q K M = attnArrR Q K M := by
  funext j
  obtain ⟨b, i, k, rfl⟩ : ∃ (b : Fin 32) (i k : Fin 2048), j = ix3 b i k := ⟨j 0, j 1, j 2, eq_ix3 j⟩
  exact attn_row_eq (scoreRow Q K M b i) (scoreRow_cases Q K M hQ hK b i) (scoreRow_one Q K M hQ hK hM b i) k

/-- Over the arrays: with q, k, v real and an unmasked key in every row, the output arrays agree. -/
theorem outArr_eq (Q K V : SQ.Idx → EReal) (M : SA.Idx → BitVec 1)
    (hQ : ∀ j, ∃ r : ℝ, Q j = (r : EReal)) (hK : ∀ j, ∃ r : ℝ, K j = (r : EReal)) (hV : ∀ j, ∃ r : ℝ, V j = (r : EReal))
    (hM : ∀ (b : Fin 32) (i : Fin 2048), ∃ k : Fin 2048, M (ix3 b i k) = 0#1) :
    outArrK Q K V M = outArrR Q K V M := by
  funext j
  obtain ⟨b, i, d, rfl⟩ : ∃ (b : Fin 32) (i : Fin 2048) (d : Fin 64), j = ix3 b i d := ⟨j 0, j 1, j 2, eq_ix3 j⟩
  exact out_row_eq (scoreRow Q K M b i) (scoreRow_cases Q K M hQ hK b i) (scoreRow_one Q K M hQ hK hM b i)
    (valCol V b d) (fun k => hV (ix3 b k d))

end Cert.Attn

end
-- ==== Proof.RefArr.lean ====
/-
  The reference, stage by stage, is the specification in its divided form: the batched contraction of q with k over the
  feature axis divided by 8 and masked to -∞ is the row's score; the maximum over the key axis (from -∞, and once more
  against -∞) is the row's maximum; the exponential of the difference, its sum over the keys, the entrywise quotient,
  and the batched contraction of that with v over the key axis.
-/
import proofs.«428668_j5308579578425_3_alg».proof.Proof.Spec
import proofs.«428668_j5308579578425_3_alg».proof.Proof.Gen.ReferenceIdeal.Read

noncomputable section

open scoped BigOperators

namespace Cert.ReferenceIdeal.AttnValue

open Cert.ReferenceIdeal Cert.ReferenceIdeal.Gen Cert.ReferenceIdeal.Read Idealize.ShloMosaic Idealize.ShloMosaic.ValueIdx

/-! ## Constants -/

/-- The pattern 0xFF800000 is -∞. -/
theorem negInf_eq : (Ideal.ofBits .f32 0xFF800000#32 : Ideal .f32) = (⊥ : EReal) := by
  simp [Ideal.ofBits, Ideal.ieee]

/-- The pattern 0x41000000 is 8. -/
theorem eight_eq : (Ideal.ofBits .f32 0x41000000#32 : Ideal .f32) = ((8 : ℝ) : EReal) := by
  simp [Ideal.ofBits, Ideal.ieee, -EReal.coe_mul]; norm_num

/-! ## The index maps at coordinates -/

theorem lidx0_ix (b : Fin 32) (i k : Fin 2048) (d : Fin 64) : lidx_main_v0 (ix3 b i k) d = ix3 b i d :=
  funext fun a => Fin.ext (by match a with | ⟨0, _⟩ => rfl | ⟨1, _⟩ => rfl | ⟨2, _⟩ => rfl)

theorem ridx0_ix (b : Fin 32) (i k : Fin 2048) (d : Fin 64) : ridx_main_v0 (ix3 b i k) d = ix3 b k d :=
  funext fun a => Fin.ext (by match a with | ⟨0, _⟩ => rfl | ⟨1, _⟩ => rfl | ⟨2, _⟩ => rfl)

theorem idx78_ix (b : Fin 32) (i k : Fin 2048) : idx_main_v7 (idx_main_v8 (ix3 b i k)) = ix2 b i :=
  funext fun a => Fin.ext (by match a with | ⟨0, _⟩ => rfl | ⟨1, _⟩ => rfl)

theorem idx1213_ix (b : Fin 32) (i k : Fin 2048) : idx_main_v12 (idx_main_v13 (ix3 b i k)) = ix2 b i :=
  funext fun a => Fin.ext (by match a with | ⟨0, _⟩ => rfl | ⟨1, _⟩ => rfl)

theorem idx11_ix (b : Fin 32) (i k : Fin 2048) : idx_main_v11 (ix2 b i) k = ix3 b i k :=
  funext fun a => Fin.ext (by match a with | ⟨0, _⟩ => rfl | ⟨1, _⟩ => rfl | ⟨2, _⟩ => rfl)

theorem lidx15_ix (b : Fin 32) (i : Fin 2048) (d : Fin 64) (k : Fin 2048) : lidx_main_v15 (ix3 b i d) k = ix3 b i k :=
  funext fun a => Fin.ext (by match a with | ⟨0, _⟩ => rfl | ⟨1, _⟩ => rfl | ⟨2, _⟩ => rfl)

theorem ridx15_ix (b : Fin 32) (i : Fin 2048) (d : Fin 64) (k : Fin 2048) : ridx_main_v15 (ix3 b i d) k = ix3 b k d :=
  funext fun a => Fin.ext (by match a with | ⟨0, _⟩ => rfl | ⟨1, _⟩ => rfl | ⟨2, _⟩ => rfl)

/-! ## The stages at coordinates -/

/-- The masked, scaled contraction is the row's score. -/
theorem score_eq (x0 x1 : FVec Ideal S32x2048x64 .f32) (x3 : IVec S32x2048x2048 1) (b : Fin 32) (i k : Fin 2048) :
    val_main_v3 (F := Ideal) x0 x1 x3 (ix3 b i k) = Cert.Attn.scoreRow x0 x1 x3 b i k := by
  have h0 : val_main_v0 (F := Ideal) x0 x1 (ix3 b i k) = ∑ d : Fin 64, x0 (ix3 b i d) * x1 (ix3 b k d) := by
    refine (val_main_v0_apply x0 x1 (ix3 b i k)).trans ?_
    refine Finset.sum_congr rfl fun d _ => ?_
    rw [lidx0_ix, ridx0_ix]
  have h1 : val_main_v1 (F := Ideal) (ix3 b i k) = ((8 : ℝ) : EReal) := by
    refine (val_main_v1_apply (F := Ideal) (ix3 b i k)).trans ?_
    refine (val_main_cst_apply (F := Ideal) _).trans ?_
    exact eight_eq
  have hb : val_main_call0_v1 (F := Ideal) (ix3 b i k) = (⊥ : EReal) := by
    refine (val_main_call0_v1_apply (F := Ideal) (ix3 b i k)).trans ?_
    refine (val_main_call0_v0_apply (F := Ideal) _).trans ?_
    refine (val_main_cst_0_apply (F := Ideal) _).trans ?_
    exact negInf_eq
  have h2 : val_main_v2 (F := Ideal) x0 x1 (ix3 b i k)
      = (∑ d : Fin 64, x0 (ix3 b i d) * x1 (ix3 b k d)) * ((1 / 8 : ℝ) : EReal) := by
    refine (val_main_v2_apply (F := Ideal) x0 x1 (ix3 b i k)).trans ?_
    rw [h0, h1, Ideal.hostDivf_def]
    exact Ideal.div_coe (by norm_num : (8 : ℝ) ≠ 0) _
  refine (val_main_v3_apply (F := Ideal) x0 x1 x3 (ix3 b i k)).trans ?_
  rw [hb, h2]
  rfl

/-- A maximum over the key axis from an initial value is, at a row, the fold of max over the row's entries. -/
theorem reduceMax_row (y : S32x2048x2048.Idx → EReal) (c : S_.Idx → EReal) (b : Fin 32) (i : Fin 2048) :
    Host.reduce (FloatOps.maximumf (F := Ideal) (φ := .f32)) y c reducesTo_S32x2048x2048_S32x2048_d2 h_S_ (ix2 b i)
      = (Finset.univ : Finset (Fin 2048)).fold max (c (Shape.Idx.first h_S_)) (fun k => y (ix3 b i k)) := by
  have hR : S32x2048x2048.Reduces [2] S32x2048 := by decide
  refine (Host.reduce_eq_fold_single (FloatOps.maximumf (F := Ideal) (φ := .f32)) y c
    reducesTo_S32x2048x2048_S32x2048_d2 hR h_S_ (ix2 b i)).trans ?_
  have e : y ∘ hR.lift (ix2 b i) = fun k : Fin 2048 => y (ix3 b i k) := by
    funext k
    exact congrArg y (funext fun a => Fin.ext (by match a with | ⟨0, _⟩ => rfl | ⟨1, _⟩ => rfl | ⟨2, _⟩ => rfl))
  exact congrArg (fun g : Fin 2048 → EReal => (Finset.univ : Finset (Fin 2048)).fold max (c (Shape.Idx.first h_S_)) g) e

/-- The maximum over the key axis, taken once more against -∞, is the row's maximum. -/
theorem max_eq (x0 x1 : FVec Ideal S32x2048x64 .f32) (x3 : IVec S32x2048x2048 1) (b : Fin 32) (i : Fin 2048) :
    val_main_v6 (F := Ideal) x0 x1 x3 (ix2 b i) = Cert.Attn.rowMax (Cert.Attn.scoreRow x0 x1 x3 b i) := by
  have h5 : val_main_v5 (F := Ideal) (ix2 b i) = (⊥ : EReal) := by
    refine (val_main_v5_apply (F := Ideal) (ix2 b i)).trans ?_
    refine (val_main_cst_2_apply (F := Ideal) _).trans ?_
    exact negInf_eq
  have hinit : val_main_cst_1 (F := Ideal) (Shape.Idx.first h_S_) = (⊥ : EReal) :=
    (val_main_cst_1_apply (F := Ideal) _).trans negInf_eq
  have h4 : val_main_v4 (F := Ideal) x0 x1 x3 (ix2 b i) = Cert.Attn.rowMax (Cert.Attn.scoreRow x0 x1 x3 b i) := by
    refine (reduceMax_row (val_main_v3 (F := Ideal) x0 x1 x3) (val_main_cst_1 (F := Ideal)) b i).trans ?_
    rw [hinit]
    unfold Cert.Attn.rowMax
    exact congrArg (fun g : Fin 2048 → EReal => (Finset.univ : Finset (Fin 2048)).fold max ⊥ g)
      (funext fun k => score_eq x0 x1 x3 b i k)
  refine (val_main_v6_apply (F := Ideal) x0 x1 x3 (ix2 b i)).trans ?_
  rw [h5, h4, Ideal.maximumf_def]
  exact max_eq_right bot_le

/-- The exponential of the score less the row's maximum. -/
theorem p_eq (x0 x1 : FVec Ideal S32x2048x64 .f32) (x3 : IVec S32x2048x2048 1) (b : Fin 32) (i k : Fin 2048) :
    val_main_v10 (F := Ideal) x0 x1 x3 (ix3 b i k) = Cert.Attn.rowP (Cert.Attn.scoreRow x0 x1 x3 b i) k := by
  have h8 : val_main_v8 (F := Ideal) x0 x1 x3 (ix3 b i k) = Cert.Attn.rowMax (Cert.Attn.scoreRow x0 x1 x3 b i) := by
    refine (val_main_v8_apply (F := Ideal) x0 x1 x3 (ix3 b i k)).trans ?_
    refine (val_main_v7_apply (F := Ideal) x0 x1 x3 _).trans ?_
    rw [idx78_ix]
    exact max_eq x0 x1 x3 b i
  refine (val_main_v10_apply (F := Ideal) x0 x1 x3 (ix3 b i k)).trans ?_
  rw [Ideal.hostUnary_exp_def]
  unfold Cert.Attn.rowP
  refine congrArg Ideal.exp ?_
  refine (val_main_v9_apply (F := Ideal) x0 x1 x3 (ix3 b i k)).trans ?_
  rw [Ideal.subf_def, score_eq, h8]

/-- The sum of the exponentials over the key axis (from 0). -/
theorem l_eq (x0 x1 : FVec Ideal S32x2048x64 .f32) (x3 : IVec S32x2048x2048 1) (b : Fin 32) (i : Fin 2048) :
    val_main_v11 (F := Ideal) x0 x1 x3 (ix2 b i) = Cert.Attn.rowL (Cert.Attn.scoreRow x0 x1 x3 b i) := by
  refine (val_main_v11_apply x0 x1 x3 (ix2 b i)).trans ?_
  rw [val_main_cst_3_apply, Ideal.ofBits_def, Ideal.ofBits_zero_f32, zero_add]
  unfold Cert.Attn.rowL
  refine Finset.sum_congr rfl fun k _ => ?_
  rw [idx11_ix]
  exact p_eq x0 x1 x3 b i k

/-- The entrywise quotient is the softmax entry in its divided form. -/
theorem attn_eq (x0 x1 : FVec Ideal S32x2048x64 .f32) (x3 : IVec S32x2048x2048 1) (b : Fin 32) (i k : Fin 2048) :
    val_main_v14 (F := Ideal) x0 x1 x3 (ix3 b i k) = Cert.Attn.attnR (Cert.Attn.scoreRow x0 x1 x3 b i) k := by
  have h13 : val_main_v13 (F := Ideal) x0 x1 x3 (ix3 b i k) = Cert.Attn.rowL (Cert.Attn.scoreRow x0 x1 x3 b i) := by
    refine (val_main_v13_apply (F := Ideal) x0 x1 x3 (ix3 b i k)).trans ?_
    refine (val_main_v12_apply (F := Ideal) x0 x1 x3 _).trans ?_
    rw [idx1213_ix]
    exact l_eq x0 x1 x3 b i
  refine (val_main_v14_apply (F := Ideal) x0 x1 x3 (ix3 b i k)).trans ?_
  rw [Ideal.hostDivf_def, p_eq, h13]
  rfl

/-- The contraction of the softmax row with a column of the values is the output entry in its divided form. -/
theorem out_eq (x0 x1 x2 : FVec Ideal S32x2048x64 .f32) (x3 : IVec S32x2048x2048 1) (b : Fin 32) (i : Fin 2048)
    (d : Fin 64) :
    val_main_v15 (F := Ideal) x0 x1 x2 x3 (ix3 b i d)
      = Cert.Attn.outR (Cert.Attn.scoreRow x0 x1 x3 b i) (Cert.Attn.valCol x2 b d) := by
  refine (val_main_v15_apply x0 x1 x2 x3 (ix3 b i d)).trans ?_
  unfold Cert.Attn.outR Cert.Attn.valCol
  refine Finset.sum_congr rfl fun k _ => ?_
  rw [lidx15_ix, ridx15_ix, attn_eq]

/-! ## Over the arrays -/

/-- The softmax stage is the specification's softmax array (divided form). -/
theorem v14_eq (x0 x1 : FVec Ideal S32x2048x64 .f32) (x3 : IVec S32x2048x2048 1) :
    val_main_v14 (F := Ideal) x0 x1 x3 = Cert.Attn.attnArrR x0 x1 x3 := by
  funext j
  obtain ⟨b, i, k, rfl⟩ : ∃ (b : Fin 32) (i k : Fin 2048), j = ix3 b i k := ⟨j 0, j 1, j 2, eq_ix3 j⟩
  exact attn_eq x0 x1 x3 b i k

/-- The output stage is the specification's output array (divided form). -/
theorem v15_eq (x0 x1 x2 : FVec Ideal S32x2048x64 .f32) (x3 : IVec S32x2048x2048 1) :
    val_main_v15 (F := Ideal) x0 x1 x2 x3 = Cert.Attn.outArrR x0 x1 x2 x3 := by
  funext j
  obtain ⟨b, i, d, rfl⟩ : ∃ (b : Fin 32) (i : Fin 2048) (d : Fin 64), j = ix3 b i d := ⟨j 0, j 1, j 2, eq_ix3 j⟩
  exact out_eq x0 x1 x2 x3 b i d

end Cert.ReferenceIdeal.AttnValue

end
-- ==== Proof.PreDecode.lean ====
/-
  The precondition, read back: it is the conjunction of "|x| < +∞ everywhere" for q, k and v and of "every query row
  of the mask has a key that is not masked out" (the negated mask, or-ed over the key axis, and-ed over all rows).
  An extended real whose absolute value is below +∞ is a real number.
-/
import proofs.«428668_j5308579578425_3_alg».proof.Pre_finite_inputs
import proofs.«428668_j5308579578425_3_alg».proof.Proof.Spec
import Idealize.ShloMosaic.Lib.ReduceAll
import Idealize.ShloMosaic.Lib.StableHlo.Predicate

noncomputable section

namespace Cert.Attn

open Idealize.ShloMosaic Idealize.ShloMosaic.ValueIdx

/-- The rank-zero shape has exactly one index. -/
instance pre_subsingleton_scalarIdx : Subsingleton Cert.Pre_finite_inputs.S_.Idx :=
  ⟨fun _ _ => funext fun d => d.elim0⟩

/-- An extended real whose absolute value max x (-x) is strictly below +∞ is a real number: at -∞ and at +∞ the
    absolute value is +∞, which is not below itself. -/
theorem pre_real_of_abs_lt_top (x : EReal) (h : Ideal.cmp .olt (max x (-x)) ⊤ = 1#1) : ∃ r : ℝ, x = (r : EReal) := by
  induction x using EReal.rec with
  | bot => simp [Ideal.cmp] at h
  | coe r => exact ⟨r, rfl⟩
  | top => simp [Ideal.cmp] at h

/-- A left fold by `or` over one-bit words that came out 1 started at 1 or met a 1. -/
theorem pre_foldl_ori_eq_one {ι : Type} (f : ι → BitVec 1) :
    ∀ (l : List ι) (init : BitVec 1), l.foldl (fun r n => IntOp.ori r (f n)) init = 1#1 → init = 1#1 ∨ ∃ n ∈ l, f n = 1#1
  | [], _, h => Or.inl h
  | a :: l, init, h => by
    rcases pre_foldl_ori_eq_one f l _ h with h1 | ⟨n, hn, hf⟩
    · rcases IntOp.ori_eq_one.1 h1 with hi | ha
      · exact Or.inl hi
      · exact Or.inr ⟨a, List.mem_cons_self, ha⟩
    · exact Or.inr ⟨n, List.mem_cons_of_mem _ hn, hf⟩

/-- A reduction by `or` from 0 that is 1 at `j` had a 1 at some operand index that reduces into `j`. -/
theorem pre_reduce_ori_eq_one {s t u : Shape} {axes : List (Fin s.rank)} (x : s.Idx → BitVec 1) (init : u.Idx → BitVec 1)
    (h : s.ReducesTo axes t) (hu : 0 < u.numel) (j : t.Idx) (hinit : init (Shape.Idx.first hu) = 0#1)
    (e : Host.reduce IntOp.ori x init h hu j = 1#1) : ∃ i : s.Idx, h.drop i = j ∧ x i = 1#1 := by
  rw [Host.reduce_eq_foldl] at e
  rcases pre_foldl_ori_eq_one x _ _ e with h1 | ⟨i, hi, hx⟩
  · rw [hinit] at h1; exact absurd h1 (by decide)
  · rw [List.mem_filter] at hi
    exact ⟨i, of_decide_eq_true hi.2, hx⟩

/-- A source index of the mask that drops (its key axis removed) to the row (b, i) is (b, i, its own key): the drop
    keeps coordinates 0 and 1. -/
theorem pre_eq_ix3_of_drop (hr : Cert.Pre_finite_inputs.S32x2048x2048.ReducesTo [2] Cert.Pre_finite_inputs.S32x2048)
    (b : Fin 32) (i : Fin 2048) (i' : Cert.Pre_finite_inputs.S32x2048x2048.Idx) (hd : hr.drop i' = ix2 b i) :
    i' = ix3 b i (i' 2) := by
  have h0 : ((i' 0 : Fin 32) : Nat) = b := by
    rw [← Shape.ReducesTo.drop_apply_val_of_eq hr i' 0 0, hd]
  have h1 : ((i' 1 : Fin 2048) : Nat) = i := by
    rw [← Shape.ReducesTo.drop_apply_val_of_eq hr i' 1 1, hd]
  funext d
  match d with
  | ⟨0, _⟩ => exact Fin.ext h0
  | ⟨1, _⟩ => exact Fin.ext h1
  | ⟨2, _⟩ => rfl

/-- The binary32 pattern 0x7F800000 (sign 0, exponent all ones, fraction 0) denotes +∞. -/
theorem pre_ofBits_inf : Ideal.ofBits .f32 0x7F800000#32 = (⊤ : EReal) := by
  simp [Ideal.ofBits, Ideal.ieee]

/-- One array's conjunct: the and over all indices of "|x| < +∞" is 1, so it holds at every index, and every element
    is a real number. -/
theorem pre_real_of_all_lt_inf (X : FVec Ideal Cert.Pre_finite_inputs.S32x2048x64 .f32)
    (hb : Cert.Pre_finite_inputs.S_.BroadcastsInDim Cert.Pre_finite_inputs.S32x2048x64 ![])
    (hr : Cert.Pre_finite_inputs.S32x2048x64.ReducesTo [0, 1, 2] Cert.Pre_finite_inputs.S_)
    (hu : 0 < Cert.Pre_finite_inputs.S_.numel)
    (e : Host.reduce IntOp.andi
        (cmpf .olt (Host.absf X) (broadcastInDim Cert.Pre_finite_inputs.S32x2048x64 ![] hb
          (constant Cert.Pre_finite_inputs.S_ .f32 0x7F800000#32)))
        (constantI Cert.Pre_finite_inputs.S_ 1 1#1) hr hu ix0 = 1#1) :
    ∀ j, ∃ r : ℝ, X j = (r : EReal) := by
  intro j
  have ej := Host.reduce_andi_all _ _ hr hu ix0 e j
  have hc : broadcastInDim Cert.Pre_finite_inputs.S32x2048x64 ![] hb
      (constant (F := Ideal) Cert.Pre_finite_inputs.S_ .f32 0x7F800000#32) j = (⊤ : EReal) :=
    (StableHlo.Predicate.bcast_scalar hb hu _ j).trans pre_ofBits_inf
  rw [ValueIdx.cmpf_apply, hc] at ej
  exact pre_real_of_abs_lt_top (X j) ej

/-- What the precondition says of the four argument arrays. -/
theorem of_pre [Cert.Pre_finite_inputs.Facts] (Q K V : FVec Ideal Cert.Pre_finite_inputs.S32x2048x64 .f32)
    (M : IVec Cert.Pre_finite_inputs.S32x2048x2048 1)
    (h : Cert.Pre_finite_inputs.fn (F := Ideal) Q K V M = fun _ => 1#1) :
    (∀ j, ∃ r : ℝ, Q j = (r : EReal)) ∧ (∀ j, ∃ r : ℝ, K j = (r : EReal)) ∧ (∀ j, ∃ r : ℝ, V j = (r : EReal))
      ∧ (∀ (b : Fin 32) (i : Fin 2048), ∃ k : Fin 2048, M (ix3 b i k) = 0#1) := by
  -- the result at its one index, with the chain of operations in view
  have h0 := congrFun h ValueIdx.ix0
  dsimp only [Cert.Pre_finite_inputs.fn, Cert.Pre_finite_inputs.fn_part1] at h0
  -- a conjunction of one-bit words is 1 exactly when each is
  obtain ⟨h123, hM⟩ := IntOp.andi_eq_one.1 h0
  obtain ⟨h12, hV⟩ := IntOp.andi_eq_one.1 h123
  obtain ⟨hQ, hK⟩ := IntOp.andi_eq_one.1 h12
  refine ⟨pre_real_of_all_lt_inf Q _ _ _ hQ, pre_real_of_all_lt_inf K _ _ _ hK,
    pre_real_of_all_lt_inf V _ _ _ hV, ?_⟩
  -- the mask: the and over all rows is 1, so row (b, i)'s or over the keys of the negated mask is 1,
  -- so the negated mask is 1 at some index of that row, where the mask itself is 0
  intro b i
  have e := Host.reduce_andi_all _ _ _ _ ix0 hM (ix2 b i)
  obtain ⟨i', hd, hx⟩ := pre_reduce_ori_eq_one _ _ _ _ _ rfl e
  refine ⟨i' 2, ?_⟩
  have hM0 : M i' = 0#1 := eq_zero_of_ne_one (IntOp.not_eq_one.1 hx)
  exact (congrArg M (pre_eq_ix3_of_drop _ b i i' hd)).symm.trans hM0

end Cert.Attn

end
-- ==== Proof.KernelBlock.lean ====
/-
  The kernel body's values at one index of a block.

  A grid point's body sees a 512-row tile of q (P0), all 2048 rows of k (P1) and of v (P3) of one batch, and the
  tile's 512 × 2048 mask words (P2, the mask bits widened to 32-bit words). Row r of the tile has the scores
  s k = (Σ_d P0 (r, d) · P1 (k, d)) · (1/8), -∞ where the word is not 0; the body's shifted exponential at (r, k) is
  the row's p k, its lane sum the row's ℓ, what it stores to the softmax block p k · (1/ℓ) and to the output block
  (Σ_k p k · P3 (k, d)) · (1/ℓ): the specification's row functions in the reciprocal-first form.
-/
import proofs.«428668_j5308579578425_3_alg».proof.Proof.Spec
import proofs.«428668_j5308579578425_3_alg».proof.Proof.Gen.KernelIdeal.Value
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.AttnBlock

open Cert.KernelIdeal Cert.KernelIdeal.Gen Idealize.ShloMosaic Idealize.ShloMosaic.ValueIdx

/-! ## Layout: a per-row value broadcast along the row -/

/-- A length-a vector cast to a column [a, 1] and broadcast to [a, b] reads, at (r, k), the vector at r. -/
theorem column_bcast_apply {α : Type} {a b : ℕ} (x : (⟨1, ![a]⟩ : Shape).Idx → α)
    (h1 : (⟨1, ![a]⟩ : Shape).ShapeCasts ⟨2, ![a, 1]⟩) (h2 : (⟨2, ![a, 1]⟩ : Shape).Broadcasts ⟨2, ![a, b]⟩)
    (r : Fin a) (k : Fin b) :
    broadcastTo ⟨2, ![a, b]⟩ (shapeCast ⟨2, ![a, 1]⟩ x h1) h2 (ix2 r k) = x (ix1 r) := by
  refine (broadcastTo_apply _ h2 (ix2 r k) (ix2 r (0 : Fin 1)) fun ax => ?_).trans ?_
  · match ax with
    | ⟨0, _⟩ =>
      show r.val = if a = 1 then 0 else r.val
      split
      · have := r.isLt; omega
      · rfl
    | ⟨1, _⟩ =>
      show (0 : ℕ) = if (1 : ℕ) = 1 then 0 else k.val
      rw [if_pos rfl]
  · exact shapeCast_apply x h1 _ _ (by
      rw [Shape.rowMajor_val_one, Shape.rowMajor_val_two]
      show r.val = r.val * 1 + 0
      omega)

/-! ## The constants -/

/-- The mask fill is the named -∞. -/
theorem neg_big : Named.named (F := Ideal) κ "neg_big" (φ := .f32) 0xFF333332#32 = (⊥ : EReal) :=
  IdealRules.named_const.ideal_named_scalar _ _ _ _ rfl

/-- The scale 0.125 is the real 1/8. -/
theorem eighth : Ideal.ofBits .f32 0x3E000000#32 = ((1 / 8 : ℝ) : EReal) := by
  simp [Ideal.ofBits, Ideal.ieee, -EReal.coe_mul]; norm_num

/-- A mask bit widened to a word and tested against zero is the bit. -/
theorem bit_of_word (b : BitVec 1) : IntOp.cmpi .ne (b.setWidth 32) 0#32 = b := by
  rcases BitVec.eq_zero_or_eq_one b with h | h <;> subst h <;> decide

/-! ## The first product: scores before scaling -/

theorem lhs_qk_0 (i : S512x2048.Idx) (q : dot_S512x64_S2048x64_S512x2048_1_1_0_0_n_n.contr.Idx) :
    (dot_S512x64_S2048x64_S512x2048_1_1_0_0_n_n.lhsIdx i q 0).val = (i 0).val := by
  unfold DotDims.lhsIdx
  rw [dif_neg (show ¬(0 : Fin S512x64.rank) ∈ dot_S512x64_S2048x64_S512x2048_1_1_0_0_n_n.lhsBatch by decide), dif_pos (show (0 : Fin S512x64.rank) ∈ dot_S512x64_S2048x64_S512x2048_1_1_0_0_n_n.lhsNonContracting by decide)]
  rfl
theorem lhs_qk_1 (i : S512x2048.Idx) (q : dot_S512x64_S2048x64_S512x2048_1_1_0_0_n_n.contr.Idx) :
    (dot_S512x64_S2048x64_S512x2048_1_1_0_0_n_n.lhsIdx i q 1).val = (q ⟨0, by decide⟩).val :=
  dot_S512x64_S2048x64_S512x2048_1_1_0_0_n_n.lhsIdx_val_of_single rfl i q
theorem rhs_qk_0 (i : S512x2048.Idx) (q : dot_S512x64_S2048x64_S512x2048_1_1_0_0_n_n.contr.Idx) :
    (dot_S512x64_S2048x64_S512x2048_1_1_0_0_n_n.rhsIdx i q 0).val = (i 1).val := by
  unfold DotDims.rhsIdx
  rw [dif_neg (show ¬(0 : Fin S2048x64.rank) ∈ dot_S512x64_S2048x64_S512x2048_1_1_0_0_n_n.rhsBatch by decide), dif_pos (show (0 : Fin S2048x64.rank) ∈ dot_S512x64_S2048x64_S512x2048_1_1_0_0_n_n.rhsNonContracting by decide)]
  rfl
theorem rhs_qk_1 (i : S512x2048.Idx) (q : dot_S512x64_S2048x64_S512x2048_1_1_0_0_n_n.contr.Idx) :
    (dot_S512x64_S2048x64_S512x2048_1_1_0_0_n_n.rhsIdx i q 1).val = (q ⟨0, by decide⟩).val :=
  dot_S512x64_S2048x64_S512x2048_1_1_0_0_n_n.rhsIdx_val_of_single rfl i q

/-- The product of a [512, 64] and a [2048, 64] array contracted over their feature axes, into zero, at (r, k): the
    inner product of row r with row k. -/
theorem qk_apply (lhs : FVec Ideal S512x64 .bf16) (rhs : FVec Ideal S2048x64 .bf16) (r : Fin 512) (k : Fin 2048) :
    matmul dot_S512x64_S2048x64_S512x2048_1_1_0_0_n_n none lhs rhs (constant (F := Ideal) S512x2048 .f32 0x00000000#32) (ix2 r k)
      = ∑ d : Fin 64, lhs (ix2 r d) * rhs (ix2 k d) := by
  simp only [matmul]
  rw [Ideal.matmul_constant_zero_apply, ← Equiv.sum_comp (ValueIdx.contrEquiv1 dot_S512x64_S2048x64_S512x2048_1_1_0_0_n_n 64 rfl rfl).symm]
  refine Finset.sum_congr rfl fun d _ => ?_
  have hk := ValueIdx.contrEquiv1_symm_val dot_S512x64_S2048x64_S512x2048_1_1_0_0_n_n 64 rfl rfl d
  have el : dot_S512x64_S2048x64_S512x2048_1_1_0_0_n_n.lhsIdx (ix2 r k) ((ValueIdx.contrEquiv1 dot_S512x64_S2048x64_S512x2048_1_1_0_0_n_n 64 rfl rfl).symm d) = ix2 r d := funext fun a => Fin.ext (by
    match a with
    | ⟨0, _⟩ => exact lhs_qk_0 _ _
    | ⟨1, _⟩ => exact (lhs_qk_1 _ _).trans hk)
  have er : dot_S512x64_S2048x64_S512x2048_1_1_0_0_n_n.rhsIdx (ix2 r k) ((ValueIdx.contrEquiv1 dot_S512x64_S2048x64_S512x2048_1_1_0_0_n_n 64 rfl rfl).symm d) = ix2 k d := funext fun a => Fin.ext (by
    match a with
    | ⟨0, _⟩ => exact rhs_qk_0 _ _
    | ⟨1, _⟩ => exact (rhs_qk_1 _ _).trans hk)
  rw [el, er]

/-! ## The tile's rows -/

section Tile

variable (P0 : Vec Ideal S1x512x64 .f32) (P1 : Vec Ideal S1x2048x64 .f32) (P2 : Vec Ideal S1x512x2048 .i32)
  (P3 : Vec Ideal S1x2048x64 .f32)

/-- Row r of the tile as the specification's score row: the query is row r of P0, the keys the rows of P1, a key
    masked where its word is not 0. -/
def tileScore (r : Fin 512) : Fin 2048 → EReal :=
  Cert.Attn.rowScore (fun d => P0 (ix3 (0 : Fin 1) r d)) (fun k d => P1 (ix3 (0 : Fin 1) k d))
    (fun k => IntOp.cmpi .ne (P2 (ix3 (0 : Fin 1) r k)) 0#32)

/-- The body's masked, scaled scores, as one [512, 2048] vector of the loaded blocks. -/
def sc : FVec Ideal S512x2048 .f32 :=
  select (cmpi .ne (shapeCast S512x2048 P2 shapeCasts_S1x512x2048_S512x2048) (constantI S512x2048 32 0#32))
    (broadcast S512x2048 (Named.named (F := Ideal) κ "neg_big" (φ := .f32) 0xFF333332#32))
    (mulf (matmul dot_S512x64_S2048x64_S512x2048_1_1_0_0_n_n none
        (truncf .bf16 (shapeCast S512x64 P0 shapeCasts_S1x512x64_S512x64) bitsLt_bf16_f32)
        (truncf .bf16 (shapeCast S2048x64 P1 shapeCasts_S1x2048x64_S2048x64) bitsLt_bf16_f32)
        (constant (F := Ideal) S512x2048 .f32 0x00000000#32))
      (broadcast S512x2048 (Scalar.ofBits (F := Ideal) .f32 0x3E000000#32)))

/-- The body's shifted exponential is exp (sc - row maximum of sc, broadcast along the row). -/
theorem pay2_eq : k0_pay2 (F := Ideal) P0 P1 P2
    = exp (subf (sc P0 P1 P2) (broadcastTo S512x2048 (shapeCast S512x1
        (multiReduction .maximumf [1] S512 (sc P0 P1 P2) 0xFF800000#32 reduces_S512x2048_S512 (.inl rfl) rfl)
        shapeCasts_S512_S512x1) broadcasts_S512x1_S512x2048)) := rfl

/-- The masked score at (r, k) is the specification's. -/
theorem sc_apply (r : Fin 512) (k : Fin 2048) : sc P0 P1 P2 (ix2 r k) = tileScore P0 P1 P2 r k := by
  unfold sc tileScore Cert.Attn.rowScore
  rw [select_apply]
  show Scalar.select (IntOp.cmpi .ne (shapeCast S512x2048 P2 shapeCasts_S1x512x2048_S512x2048 (ix2 r k)) 0#32)
      (Named.named (F := Ideal) κ "neg_big" (φ := .f32) 0xFF333332#32)
      (matmul dot_S512x64_S2048x64_S512x2048_1_1_0_0_n_n none
        (truncf .bf16 (shapeCast S512x64 P0 shapeCasts_S1x512x64_S512x64) bitsLt_bf16_f32)
        (truncf .bf16 (shapeCast S2048x64 P1 shapeCasts_S1x2048x64_S2048x64) bitsLt_bf16_f32)
        (constant (F := Ideal) S512x2048 .f32 0x00000000#32) (ix2 r k) * Ideal.ofBits .f32 0x3E000000#32) = _
  rw [shapeCast_1ab_ab_apply, neg_big, qk_apply, eighth]
  simp only [truncf_apply, shapeCast_1ab_ab_apply]

end Tile

/-! ## More layout: a column broadcast, a vector cast to a column -/

/-- An [a, 1] column broadcast to [a, b] reads, at (r, k), the column at r. -/
theorem bcast_col_apply {α : Type} {a b : ℕ} (X : (⟨2, ![a, 1]⟩ : Shape).Idx → α)
    (h2 : (⟨2, ![a, 1]⟩ : Shape).Broadcasts ⟨2, ![a, b]⟩) (r : Fin a) (k : Fin b) :
    broadcastTo ⟨2, ![a, b]⟩ X h2 (ix2 r k) = X (ix2 r (0 : Fin 1)) := by
  refine broadcastTo_apply _ h2 (ix2 r k) (ix2 r (0 : Fin 1)) fun ax => ?_
  match ax with
  | ⟨0, _⟩ =>
    show r.val = if a = 1 then 0 else r.val
    split
    · have := r.isLt; omega
    · rfl
  | ⟨1, _⟩ =>
    show (0 : ℕ) = if (1 : ℕ) = 1 then 0 else k.val
    rw [if_pos rfl]

/-- A length-a vector cast to a column [a, 1] reads, at (r, 0), the vector at r. -/
theorem cast_col_apply {α : Type} {a : ℕ} (x : (⟨1, ![a]⟩ : Shape).Idx → α)
    (h1 : (⟨1, ![a]⟩ : Shape).ShapeCasts ⟨2, ![a, 1]⟩) (r : Fin a) :
    shapeCast ⟨2, ![a, 1]⟩ x h1 (ix2 r (0 : Fin 1)) = x (ix1 r) :=
  shapeCast_apply x h1 _ _ (by
    rw [Shape.rowMajor_val_one, Shape.rowMajor_val_two]
    show r.val = r.val * 1 + 0
    omega)

/-- -∞'s pattern denotes -∞, 1.0's the real 1. -/
theorem neg_inf : Ideal.ofBits .f32 0xFF800000#32 = (⊥ : EReal) := by simp [Ideal.ofBits, Ideal.ieee]
theorem one_f32 : Ideal.ofBits .f32 0x3F800000#32 = (1 : EReal) := by
  simp [Ideal.ofBits, Ideal.ieee, -EReal.coe_mul]; norm_num

section TileRows

variable (P0 : Vec Ideal S1x512x64 .f32) (P1 : Vec Ideal S1x2048x64 .f32) (P2 : Vec Ideal S1x512x2048 .i32)
  (P3 : Vec Ideal S1x2048x64 .f32)

/-- The index a reduction over the key axis inserts at row r, key k, is (r, k). -/
theorem lift_row (r : Fin 512) (k : Fin 2048) :
    (reduces_S512x2048_S512.lift (ix1 r) k : S512x2048.Idx) = ix2 r k :=
  funext fun a => Fin.ext (by match a with | ⟨0, _⟩ => rfl | ⟨1, _⟩ => rfl)

/-- The lane maximum of the masked scores at row r is the row's maximum. -/
theorem mx_apply (r : Fin 512) :
    multiReduction .maximumf [1] S512 (sc P0 P1 P2) 0xFF800000#32 reduces_S512x2048_S512 (.inl rfl) rfl (ix1 r)
      = Cert.Attn.rowMax (tileScore P0 P1 P2 r) := by
  refine (Ideal.multiReduction_maximumf_single (sc P0 P1 P2) 0xFF800000#32 reduces_S512x2048_S512 (.inl rfl) rfl (ix1 r)).trans ?_
  have hf : (sc P0 P1 P2 ∘ reduces_S512x2048_S512.lift (ix1 r)) = tileScore P0 P1 P2 r := funext fun k =>
    (congrArg (sc P0 P1 P2) (lift_row r k)).trans (sc_apply P0 P1 P2 r k)
  show Finset.fold max (Ideal.ofBits .f32 0xFF800000#32) (sc P0 P1 P2 ∘ reduces_S512x2048_S512.lift (ix1 r)) Finset.univ = _
  rw [hf, neg_inf]
  rfl

/-- The body's shifted exponential at (r, k) is the row's p k. -/
theorem pay2_apply (r : Fin 512) (k : Fin 2048) :
    k0_pay2 (F := Ideal) P0 P1 P2 (ix2 r k) = Cert.Attn.rowP (tileScore P0 P1 P2 r) k := by
  rw [pay2_eq]
  show Ideal.exp (sc P0 P1 P2 (ix2 r k) - broadcastTo S512x2048 (shapeCast S512x1
        (multiReduction .maximumf [1] S512 (sc P0 P1 P2) 0xFF800000#32 reduces_S512x2048_S512 (.inl rfl) rfl)
        shapeCasts_S512_S512x1) broadcasts_S512x1_S512x2048 (ix2 r k)) = _
  rw [sc_apply, bcast_col_apply, cast_col_apply, mx_apply]
  rfl

/-- The lane sum of the shifted exponentials at row r is the row's ℓ. -/
theorem sum_apply (r : Fin 512) :
    multiReduction .add [1] S512 (k0_pay2 (F := Ideal) P0 P1 P2) 0x00000000#32 reduces_S512x2048_S512 (.inl rfl) rfl (ix1 r)
      = Cert.Attn.rowL (tileScore P0 P1 P2 r) := by
  refine (Ideal.multiReduction_add_single (k0_pay2 (F := Ideal) P0 P1 P2) 0x00000000#32 reduces_S512x2048_S512 (.inl rfl) rfl (ix1 r)).trans ?_
  unfold Cert.Attn.rowL
  exact Finset.sum_congr rfl fun k _ =>
    (congrArg (k0_pay2 (F := Ideal) P0 P1 P2) (lift_row r k)).trans (pay2_apply P0 P1 P2 r k)

/-- What the softmax block holds at (0, r, k): p k times the reciprocal of ℓ. -/
theorem E5_apply (r : Fin 512) (k : Fin 2048) :
    Cert.KernelIdeal.Value.E5 (F := Ideal) P0 P1 P2 (ix3 (0 : Fin 1) r k) = Cert.Attn.attnK (tileScore P0 P1 P2 r) k := by
  have e0 : Cert.KernelIdeal.Value.ix5_0 (ix3 (0 : Fin 1) r k) = ix2 r k :=
    funext fun a => Fin.ext (by match a with | ⟨0, _⟩ => rfl | ⟨1, _⟩ => rfl)
  have e1 : Cert.KernelIdeal.Value.ix5_1 (ix3 (0 : Fin 1) r k) = ix1 r :=
    funext fun a => Fin.ext (by match a with | ⟨0, _⟩ => rfl)
  show (k0_pay2 (F := Ideal) P0 P1 P2 (Cert.KernelIdeal.Value.ix5_0 (ix3 (0 : Fin 1) r k)))
      * Ideal.div (Ideal.ofBits .f32 0x3F800000#32)
          (multiReduction .add [1] S512 (k0_pay2 (F := Ideal) P0 P1 P2) 0x00000000#32 reduces_S512x2048_S512 (.inl rfl) rfl
            (Cert.KernelIdeal.Value.ix5_1 (ix3 (0 : Fin 1) r k))) = _
  rw [e0, e1, pay2_apply, sum_apply, one_f32]
  rfl

end TileRows

/-! ## The second product: the shifted exponentials against the values -/

theorem lhs_pv_0 (i : S512x64.Idx) (q : dot_S512x2048_S2048x64_S512x64_1_0_0_1_n_n.contr.Idx) :
    (dot_S512x2048_S2048x64_S512x64_1_0_0_1_n_n.lhsIdx i q 0).val = (i 0).val := by
  unfold DotDims.lhsIdx
  rw [dif_neg (show ¬(0 : Fin S512x2048.rank) ∈ dot_S512x2048_S2048x64_S512x64_1_0_0_1_n_n.lhsBatch by decide), dif_pos (show (0 : Fin S512x2048.rank) ∈ dot_S512x2048_S2048x64_S512x64_1_0_0_1_n_n.lhsNonContracting by decide)]
  rfl
theorem lhs_pv_1 (i : S512x64.Idx) (q : dot_S512x2048_S2048x64_S512x64_1_0_0_1_n_n.contr.Idx) :
    (dot_S512x2048_S2048x64_S512x64_1_0_0_1_n_n.lhsIdx i q 1).val = (q ⟨0, by decide⟩).val :=
  dot_S512x2048_S2048x64_S512x64_1_0_0_1_n_n.lhsIdx_val_of_single rfl i q
theorem rhs_pv_0 (i : S512x64.Idx) (q : dot_S512x2048_S2048x64_S512x64_1_0_0_1_n_n.contr.Idx) :
    (dot_S512x2048_S2048x64_S512x64_1_0_0_1_n_n.rhsIdx i q 0).val = (q ⟨0, by decide⟩).val :=
  dot_S512x2048_S2048x64_S512x64_1_0_0_1_n_n.rhsIdx_val_of_single rfl i q
theorem rhs_pv_1 (i : S512x64.Idx) (q : dot_S512x2048_S2048x64_S512x64_1_0_0_1_n_n.contr.Idx) :
    (dot_S512x2048_S2048x64_S512x64_1_0_0_1_n_n.rhsIdx i q 1).val = (i 1).val := by
  unfold DotDims.rhsIdx
  rw [dif_neg (show ¬(1 : Fin S2048x64.rank) ∈ dot_S512x2048_S2048x64_S512x64_1_0_0_1_n_n.rhsBatch by decide), dif_pos (show (1 : Fin S2048x64.rank) ∈ dot_S512x2048_S2048x64_S512x64_1_0_0_1_n_n.rhsNonContracting by decide)]
  rfl

/-- The product of a [512, 2048] and a [2048, 64] array contracted over the key axis, into zero, at (r, d): the sum
    over the keys of row r of the left against column d of the right. -/
theorem pv_apply (lhs : FVec Ideal S512x2048 .bf16) (rhs : FVec Ideal S2048x64 .bf16) (r : Fin 512) (d : Fin 64) :
    matmul dot_S512x2048_S2048x64_S512x64_1_0_0_1_n_n none lhs rhs (constant (F := Ideal) S512x64 .f32 0x00000000#32) (ix2 r d)
      = ∑ k : Fin 2048, lhs (ix2 r k) * rhs (ix2 k d) := by
  simp only [matmul]
  rw [Ideal.matmul_constant_zero_apply, ← Equiv.sum_comp (ValueIdx.contrEquiv1 dot_S512x2048_S2048x64_S512x64_1_0_0_1_n_n 2048 rfl rfl).symm]
  refine Finset.sum_congr rfl fun k _ => ?_
  have hk := ValueIdx.contrEquiv1_symm_val dot_S512x2048_S2048x64_S512x64_1_0_0_1_n_n 2048 rfl rfl k
  have el : dot_S512x2048_S2048x64_S512x64_1_0_0_1_n_n.lhsIdx (ix2 r d) ((ValueIdx.contrEquiv1 dot_S512x2048_S2048x64_S512x64_1_0_0_1_n_n 2048 rfl rfl).symm k) = ix2 r k := funext fun a => Fin.ext (by
    match a with
    | ⟨0, _⟩ => exact lhs_pv_0 _ _
    | ⟨1, _⟩ => exact (lhs_pv_1 _ _).trans hk)
  have er : dot_S512x2048_S2048x64_S512x64_1_0_0_1_n_n.rhsIdx (ix2 r d) ((ValueIdx.contrEquiv1 dot_S512x2048_S2048x64_S512x64_1_0_0_1_n_n 2048 rfl rfl).symm k) = ix2 k d := funext fun a => Fin.ext (by
    match a with
    | ⟨0, _⟩ => exact (rhs_pv_0 _ _).trans hk
    | ⟨1, _⟩ => exact rhs_pv_1 _ _)
  rw [el, er]

section TileOut

variable (P0 : Vec Ideal S1x512x64 .f32) (P1 : Vec Ideal S1x2048x64 .f32) (P2 : Vec Ideal S1x512x2048 .i32)
  (P3 : Vec Ideal S1x2048x64 .f32)

/-- The body's reciprocal column: 1 over the lane sum, as a [512, 1] column. -/
theorem pay3_eq : k0_pay3 (F := Ideal) P0 P1 P2
    = divf (broadcast S512x1 (Scalar.ofBits (F := Ideal) .f32 0x3F800000#32))
        (shapeCast S512x1 (multiReduction .add [1] S512 (k0_pay2 (F := Ideal) P0 P1 P2) 0x00000000#32 reduces_S512x2048_S512 (.inl rfl) rfl)
          shapeCasts_S512_S512x1) := rfl

/-- The reciprocal column at (r, 0) is 1 / ℓ of row r. -/
theorem pay3_apply (r : Fin 512) :
    k0_pay3 (F := Ideal) P0 P1 P2 (ix2 r (0 : Fin 1)) = Ideal.div 1 (Cert.Attn.rowL (tileScore P0 P1 P2 r)) := by
  rw [pay3_eq]
  show Ideal.div (Ideal.ofBits .f32 0x3F800000#32)
      (shapeCast S512x1 (multiReduction .add [1] S512 (k0_pay2 (F := Ideal) P0 P1 P2) 0x00000000#32 reduces_S512x2048_S512 (.inl rfl) rfl)
          shapeCasts_S512_S512x1 (ix2 r (0 : Fin 1))) = _
  rw [cast_col_apply, sum_apply, one_f32]

/-- The body's output payload: the second product scaled by the reciprocal column, cast to the block's shape. -/
theorem pay4_eq : k0_pay4 (F := Ideal) P0 P1 P3 P2
    = shapeCast S1x512x64 (mulf (matmul dot_S512x2048_S2048x64_S512x64_1_0_0_1_n_n none
          (truncf .bf16 (k0_pay2 (F := Ideal) P0 P1 P2) bitsLt_bf16_f32)
          (truncf .bf16 (shapeCast S2048x64 P3 shapeCasts_S1x2048x64_S2048x64) bitsLt_bf16_f32)
          (constant (F := Ideal) S512x64 .f32 0x00000000#32))
        (broadcastTo S512x64 (k0_pay3 (F := Ideal) P0 P1 P2) broadcasts_S512x1_S512x64)) shapeCasts_S512x64_S1x512x64 := rfl

/-- What the output block holds at (0, r, d): the row's p against column d of the values, times the reciprocal of ℓ. -/
theorem pay4_apply (r : Fin 512) (d : Fin 64) :
    k0_pay4 (F := Ideal) P0 P1 P3 P2 (ix3 (0 : Fin 1) r d)
      = Cert.Attn.outK (tileScore P0 P1 P2 r) (fun k => P3 (ix3 (0 : Fin 1) k d)) := by
  rw [pay4_eq, shapeCast_ab_1ab_apply]
  show matmul dot_S512x2048_S2048x64_S512x64_1_0_0_1_n_n none
          (truncf .bf16 (k0_pay2 (F := Ideal) P0 P1 P2) bitsLt_bf16_f32)
          (truncf .bf16 (shapeCast S2048x64 P3 shapeCasts_S1x2048x64_S2048x64) bitsLt_bf16_f32)
          (constant (F := Ideal) S512x64 .f32 0x00000000#32) (ix2 r d)
        * broadcastTo S512x64 (k0_pay3 (F := Ideal) P0 P1 P2) broadcasts_S512x1_S512x64 (ix2 r d) = _
  rw [pv_apply, bcast_col_apply, pay3_apply]
  unfold Cert.Attn.outK
  refine congrArg (· * Ideal.div 1 (Cert.Attn.rowL (tileScore P0 P1 P2 r))) (Finset.sum_congr rfl fun k _ => ?_)
  rw [truncf_apply, truncf_apply, pay2_apply, shapeCast_1ab_ab_apply]

end TileOut

end Cert.KernelIdeal.AttnBlock

end
-- ==== Proof.KernelArr.lean ====
/-
  The kernel's two result arrays after the run, as the specification's arrays in the reciprocal-first form.

  Grid point t = (b, j) works on batch b and on query rows 512 j … 512 j + 511: its q, mask, output and softmax
  blocks are those rows of batch b, its k and v blocks all 2048 rows of batch b. So row r of its tile is query
  512 j + r of batch b, the tile's score row is that query's, and what the point writes back is the block of the
  specification's array at (b, 512 j + r, ·). The 32 × 4 blocks tile each result array.
-/
import proofs.«428668_j5308579578425_3_alg».proof.Proof.Spec
import proofs.«428668_j5308579578425_3_alg».proof.Proof.KernelBlock
import proofs.«428668_j5308579578425_3_alg».proof.Proof.Gen.KernelIdeal.Value
import Idealize.ShloMosaic.Lib.Pipeline.Value
import Idealize.ShloMosaic.Lib.StableHlo.Run
import Idealize.ShloMosaic.Lib.Tactic

noncomputable section

namespace Cert.KernelIdeal.AttnValue

open Cert.KernelIdeal Cert.KernelIdeal.Gen Cert.KernelIdeal.Value Cert.KernelIdeal.AttnBlock
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz3 : (![0, 0, 0] : Fin 3 → Nat) = fun _ => 0 := funext fun a => by fin_cases a <;> rfl

/-- The printed index maps over the grid: the softmax window's block index is (b, j, 0) with b < 32, j < 4; the
    output, q and mask windows move with it; the k and v windows follow the batch only. -/
theorem idx_facts : ∀ t : Fin cfg0.N,
    win0_5.index t (0 : Fin 3) < 32 ∧ win0_5.index t (1 : Fin 3) < 4 ∧ win0_5.index t (2 : Fin 3) = 0
    ∧ win0_4.index t (0 : Fin 3) = win0_5.index t (0 : Fin 3) ∧ win0_4.index t (1 : Fin 3) = win0_5.index t (1 : Fin 3) ∧ win0_4.index t (2 : Fin 3) = 0
    ∧ win0_0.index t (0 : Fin 3) = win0_5.index t (0 : Fin 3) ∧ win0_0.index t (1 : Fin 3) = win0_5.index t (1 : Fin 3) ∧ win0_0.index t (2 : Fin 3) = 0
    ∧ win0_1.index t (0 : Fin 3) = win0_5.index t (0 : Fin 3) ∧ win0_1.index t (1 : Fin 3) = 0 ∧ win0_1.index t (2 : Fin 3) = 0
    ∧ win0_2.index t (0 : Fin 3) = win0_5.index t (0 : Fin 3) ∧ win0_2.index t (1 : Fin 3) = 0 ∧ win0_2.index t (2 : Fin 3) = 0
    ∧ win0_3.index t (0 : Fin 3) = win0_5.index t (0 : Fin 3) ∧ win0_3.index t (1 : Fin 3) = win0_5.index t (1 : Fin 3) ∧ win0_3.index t (2 : Fin 3) = 0 :=
  (by decide +kernel : ∀ t : Fin grid0.N, _)

/-- Every (batch, row tile) is some point's. -/
theorem idx_onto : ∀ (q0 : Fin 32) (q1 : Fin 4), ∃ t : Fin cfg0.N, win0_5.index t = ![q0.val, q1.val, 0] :=
  (by decide +kernel : ∀ (q0 : Fin 32) (q1 : Fin 4), ∃ t : Fin grid0.N, win0_5.index t = ![q0.val, q1.val, 0])

/-! ## The argument arrays, and the input blocks read off them -/

/-- The four arguments as launched. -/
abbrev Qa (c : Dev nD) : Cert.Attn.SQ.Idx → EReal := m ((c : Thread nD τ).loc main_arg0)
abbrev Ka (c : Dev nD) : Cert.Attn.SQ.Idx → EReal := m ((c : Thread nD τ).loc main_arg1)
abbrev Va (c : Dev nD) : Cert.Attn.SQ.Idx → EReal := m ((c : Thread nD τ).loc main_arg2)
abbrev Ma (c : Dev nD) : Cert.Attn.SA.Idx → BitVec 1 := m ((c : Thread nD τ).loc main_arg3)

/-- The mask array the region finds is the argument's bits widened to words. -/
theorem V_mask (c : Dev nD) :
    (V m c main_v0 : S32x2048x2048.Idx → BitVec 32) = extui 32 (Ma m c) natLt_1_32 := by
  dsimp only [V, hostOps0]
  after_results

/-- The q block at a point: rows 512 j … of batch b. -/
theorem qblk_apply (c : Dev nD) (t : Fin cfg0.N) (r : Fin 512) (d : Fin 64) (b : Fin 32) (i : Fin 2048)
    (hb : b.val = win0_5.index t (0 : Fin 3)) (hi : i.val = win0_5.index t (1 : Fin 3) * 512 + r.val) :
    (iblk m c 0 t : Vec Ideal S1x512x64 .f32) (ix3 (0 : Fin 1) r d) = Qa m c (ix3 b i d) := by
  obtain ⟨_, _, _, _, _, _, e0, e1, e2, _⟩ := idx_facts t
  unfold iblk
  rw [View.read_apply]
  show V m c main_arg0 _ = _
  rw [V_main_arg0]
  refine congrArg _ (funext fun a => Fin.ext ?_)
  match a with
  | ⟨0, _⟩ => show win0_0.index t (0 : Fin 3) * 1 + 1 * 0 = b.val; omega
  | ⟨1, _⟩ => show win0_0.index t (1 : Fin 3) * 512 + 1 * r.val = i.val; omega
  | ⟨2, _⟩ => show win0_0.index t (2 : Fin 3) * 64 + 1 * d.val = d.val; omega

/-- The k block at a point: all rows of batch b. -/
theorem kblk_apply (c : Dev nD) (t : Fin cfg0.N) (k : Fin 2048) (d : Fin 64) (b : Fin 32)
    (hb : b.val = win0_5.index t (0 : Fin 3)) :
    (iblk m c 1 t : Vec Ideal S1x2048x64 .f32) (ix3 (0 : Fin 1) k d) = Ka m c (ix3 b k d) := by
  obtain ⟨_, _, _, _, _, _, _, _, _, e0, e1, e2, _⟩ := idx_facts t
  unfold iblk
  rw [View.read_apply]
  show V m c main_arg1 _ = _
  rw [V_main_arg1]
  refine congrArg _ (funext fun a => Fin.ext ?_)
  match a with
  | ⟨0, _⟩ => show win0_1.index t (0 : Fin 3) * 1 + 1 * 0 = b.val; omega
  | ⟨1, _⟩ => show win0_1.index t (1 : Fin 3) * 2048 + 1 * k.val = k.val; omega
  | ⟨2, _⟩ => show win0_1.index t (2 : Fin 3) * 64 + 1 * d.val = d.val; omega

/-- The v block at a point: all rows of batch b. -/
theorem vblk_apply (c : Dev nD) (t : Fin cfg0.N) (k : Fin 2048) (d : Fin 64) (b : Fin 32)
    (hb : b.val = win0_5.index t (0 : Fin 3)) :
    (iblk m c 2 t : Vec Ideal S1x2048x64 .f32) (ix3 (0 : Fin 1) k d) = Va m c (ix3 b k d) := by
  obtain ⟨_, _, _, _, _, _, _, _, _, _, _, _, e0, e1, e2, _⟩ := idx_facts t
  unfold iblk
  rw [View.read_apply]
  show V m c main_arg2 _ = _
  rw [V_main_arg2]
  refine congrArg _ (funext fun a => Fin.ext ?_)
  match a with
  | ⟨0, _⟩ => show win0_2.index t (0 : Fin 3) * 1 + 1 * 0 = b.val; omega
  | ⟨1, _⟩ => show win0_2.index t (1 : Fin 3) * 2048 + 1 * k.val = k.val; omega
  | ⟨2, _⟩ => show win0_2.index t (2 : Fin 3) * 64 + 1 * d.val = d.val; omega

/-- The mask block at a point: the bits of rows 512 j … of batch b, widened to words. -/
theorem mblk_apply (c : Dev nD) (t : Fin cfg0.N) (r : Fin 512) (k : Fin 2048) (b : Fin 32) (i : Fin 2048)
    (hb : b.val = win0_5.index t (0 : Fin 3)) (hi : i.val = win0_5.index t (1 : Fin 3) * 512 + r.val) :
    (iblk m c 3 t : Vec Ideal S1x512x2048 .i32) (ix3 (0 : Fin 1) r k) = (Ma m c (ix3 b i k)).setWidth 32 := by
  obtain ⟨_, _, _, _, _, _, _, _, _, _, _, _, _, _, _, e0, e1, e2⟩ := idx_facts t
  unfold iblk
  rw [View.read_apply]
  show (V m c main_v0 : S32x2048x2048.Idx → BitVec 32) _ = _
  rw [V_mask]
  show (Ma m c _).setWidth 32 = _
  refine congrArg (fun j => (Ma m c j).setWidth 32) (funext fun a => Fin.ext ?_)
  match a with
  | ⟨0, _⟩ => show win0_3.index t (0 : Fin 3) * 1 + 1 * 0 = b.val; omega
  | ⟨1, _⟩ => show win0_3.index t (1 : Fin 3) * 512 + 1 * r.val = i.val; omega
  | ⟨2, _⟩ => show win0_3.index t (2 : Fin 3) * 2048 + 1 * k.val = k.val; omega

/-- Row r of the tile at a point is query 512 j + r of batch b: the tile's score row is the arrays'. -/
theorem tileScore_eq (c : Dev nD) (t : Fin cfg0.N) (r : Fin 512) (b : Fin 32) (i : Fin 2048)
    (hb : b.val = win0_5.index t (0 : Fin 3)) (hi : i.val = win0_5.index t (1 : Fin 3) * 512 + r.val) :
    tileScore (iblk m c 0 t) (iblk m c 1 t) (iblk m c 3 t) r = Cert.Attn.scoreRow (Qa m c) (Ka m c) (Ma m c) b i := by
  unfold tileScore Cert.Attn.scoreRow
  have e0 : (fun d => (iblk m c 0 t : Vec Ideal S1x512x64 .f32) (ix3 (0 : Fin 1) r d)) = fun d => Qa m c (ix3 b i d) :=
    funext fun d => qblk_apply m c t r d b i hb hi
  have e1 : (fun k d => (iblk m c 1 t : Vec Ideal S1x2048x64 .f32) (ix3 (0 : Fin 1) k d)) = fun k d => Ka m c (ix3 b k d) :=
    funext fun k => funext fun d => kblk_apply m c t k d b hb
  have e2 : (fun k => IntOp.cmpi .ne ((iblk m c 3 t : Vec Ideal S1x512x2048 .i32) (ix3 (0 : Fin 1) r k)) 0#32) = fun k => Ma m c (ix3 b i k) :=
    funext fun k => by rw [mblk_apply m c t r k b i hb hi, bit_of_word]
  rw [e0, e1, e2]

/-! ## What each point writes back -/

/-- The batch of a point. -/
def bOf (t : Fin cfg0.N) : Fin 32 := ⟨win0_5.index t (0 : Fin 3), (idx_facts t).1⟩
/-- Query row 512 j + r of a point's tile. -/
def iOf (t : Fin cfg0.N) (r : Fin 512) : Fin 2048 :=
  ⟨win0_5.index t (1 : Fin 3) * 512 + r.val, by have := (idx_facts t).2.1; have := r.isLt; omega⟩

/-- Point t writes back the block of the softmax array at (b, 512 j + r, k). -/
theorem flushed5_eq (c : Dev nD) (t : Fin cfg0.N) :
    (dats m 0 c).flushed 5 t
      = ((cfg0.win 5).blk t).view.read (Elt Ideal) (Cert.Attn.attnArrK (Qa m c) (Ka m c) (Ma m c)) := by
  show (cfg0.win 5).cut (grid0.coords t) ((dats m 0 c).after 5 t) = _
  rw [after0_5]
  unfold out0_5
  funext (y : S1x512x2048.Idx)
  obtain ⟨u, r, k, rfl⟩ : ∃ (u : Fin 1) (r : Fin 512) (k : Fin 2048), y = ix3 u r k := ⟨y 0, y 1, y 2, eq_ix3 y⟩
  obtain rfl : u = 0 := Subsingleton.elim _ _
  show View.canon ([⟨r0_2, k0_pay1 (k0_pay2 (View.ld (iblk m c 0 t) r0_0) (View.ld (iblk m c 1 t) r0_1) (View.ld (iblk m c 3 t) r0_2)) (k0_pay5 (View.ld (iblk m c 0 t) r0_0) (View.ld (iblk m c 1 t) r0_1) (View.ld (iblk m c 3 t) r0_2))⟩] : List (View.Piece (Elt Ideal) S1x512x2048 .f32)) (ix3 (0 : Fin 1) r k)
      = Cert.Attn.attnArrK (Qa m c) (Ka m c) (Ma m c) (((cfg0.win 5).blk t).view.emb (ix3 (0 : Fin 1) r k))
  rw [canon5_eq]
  simp only [View.ld_unit_zero (S := S1x512x64) hz3, View.ld_unit_zero (S := S1x2048x64) hz3, View.ld_unit_zero (S := S1x512x2048) hz3]
  refine (E5_apply (iblk m c 0 t) (iblk m c 1 t) (iblk m c 3 t) r k).trans ?_
  rw [tileScore_eq m c t r (bOf t) (iOf t r) rfl rfl]
  have he : ((cfg0.win 5).blk t).view.emb (ix3 (0 : Fin 1) r k) = ix3 (bOf t) (iOf t r) k := by
    obtain ⟨_, _, e2, _⟩ := idx_facts t
    funext a; apply Fin.ext
    match a with
    | ⟨0, _⟩ => show win0_5.index t (0 : Fin 3) * 1 + 1 * 0 = win0_5.index t (0 : Fin 3); omega
    | ⟨1, _⟩ => show win0_5.index t (1 : Fin 3) * 512 + 1 * r.val = win0_5.index t (1 : Fin 3) * 512 + r.val; omega
    | ⟨2, _⟩ => show win0_5.index t (2 : Fin 3) * 2048 + 1 * k.val = k.val; omega
  rw [he]
  rfl

/-- Point t writes back the block of the output array at (b, 512 j + r, d). -/
theorem flushed4_eq (c : Dev nD) (t : Fin cfg0.N) :
    (dats m 0 c).flushed 4 t
      = ((cfg0.win 4).blk t).view.read (Elt Ideal) (Cert.Attn.outArrK (Qa m c) (Ka m c) (Va m c) (Ma m c)) := by
  show (cfg0.win 4).cut (grid0.coords t) ((dats m 0 c).after 4 t) = _
  rw [after0_4]
  unfold out0_4
  rw [View.canon_unit_zero hz3]
  simp only [View.ld_unit_zero (S := S1x512x64) hz3, View.ld_unit_zero (S := S1x2048x64) hz3, View.ld_unit_zero (S := S1x512x2048) hz3]
  funext (y : S1x512x64.Idx)
  obtain ⟨u, r, d, rfl⟩ : ∃ (u : Fin 1) (r : Fin 512) (d : Fin 64), y = ix3 u r d := ⟨y 0, y 1, y 2, eq_ix3 y⟩
  obtain rfl : u = 0 := Subsingleton.elim _ _
  show k0_pay4 (F := Ideal) (iblk m c 0 t) (iblk m c 1 t) (iblk m c 2 t) (iblk m c 3 t) (ix3 (0 : Fin 1) r d)
      = Cert.Attn.outArrK (Qa m c) (Ka m c) (Va m c) (Ma m c) (((cfg0.win 4).blk t).view.emb (ix3 (0 : Fin 1) r d))
  refine (pay4_apply (iblk m c 0 t) (iblk m c 1 t) (iblk m c 3 t) (iblk m c 2 t) r d).trans ?_
  rw [tileScore_eq m c t r (bOf t) (iOf t r) rfl rfl]
  have hv : (fun k => (iblk m c 2 t : Vec Ideal S1x2048x64 .f32) (ix3 (0 : Fin 1) k d)) = Cert.Attn.valCol (Va m c) (bOf t) d :=
    funext fun k => vblk_apply m c t k d (bOf t) rfl
  rw [hv]
  have he : ((cfg0.win 4).blk t).view.emb (ix3 (0 : Fin 1) r d) = ix3 (bOf t) (iOf t r) d := by
    obtain ⟨_, _, _, e0, e1, e2, _⟩ := idx_facts t
    funext a; apply Fin.ext
    match a with
    | ⟨0, _⟩ => show win0_4.index t (0 : Fin 3) * 1 + 1 * 0 = win0_5.index t (0 : Fin 3); omega
    | ⟨1, _⟩ => show win0_4.index t (1 : Fin 3) * 512 + 1 * r.val = win0_5.index t (1 : Fin 3) * 512 + r.val; omega
    | ⟨2, _⟩ => show win0_4.index t (2 : Fin 3) * 64 + 1 * d.val = d.val; omega
  rw [he]
  rfl

/-! ## The blocks tile the arrays -/

theorem mem_blk5 (t : Fin cfg0.N) (i : S32x2048x2048.Idx) :
    i ∈ ((cfg0.win 5).blk t).view.set ↔ ∀ a : Fin 3, win0_5.index t a * S1x512x2048.size a ≤ (i a).val ∧ (i a).val < win0_5.index t a * S1x512x2048.size a + S1x512x2048.size a := by
  show i ∈ ((View.whole main_v1_1).slice (win0_5.rect t)).set ↔ _
  rw [View.set_slice_whole, Rect.mem_set_unit]
  exact Iff.rfl

theorem mem_blk4 (t : Fin cfg0.N) (i : S32x2048x64.Idx) :
    i ∈ ((cfg0.win 4).blk t).view.set ↔ ∀ a : Fin 3, win0_4.index t a * S1x512x64.size a ≤ (i a).val ∧ (i a).val < win0_4.index t a * S1x512x64.size a + S1x512x64.size a := by
  show i ∈ ((View.whole main_v1_0).slice (win0_4.rect t)).set ↔ _
  rw [View.set_slice_whole, Rect.mem_set_unit]
  exact Iff.rfl

/-- Every index of the softmax array is in the block of the point of its batch and row tile. -/
theorem cover5 (i : S32x2048x2048.Idx) :
    ∃ t : Fin cfg0.N, (cfg0.win 5).flush t = true ∧ i ∈ ((cfg0.win 5).blk t).view.set := by
  have hi0 : (i 0).val < 32 := (i 0).isLt
  have hi1 : (i 1).val < 2048 := (i 1).isLt
  have hi2 : (i 2).val < 2048 := (i 2).isLt
  obtain ⟨t, ht⟩ := idx_onto ⟨(i 0).val, hi0⟩ ⟨(i 1).val / 512, by omega⟩
  have q0 : win0_5.index t (0 : Fin 3) = (i 0).val := congrFun ht 0
  have q1 : win0_5.index t (1 : Fin 3) = (i 1).val / 512 := congrFun ht 1
  have q2 : win0_5.index t (2 : Fin 3) = 0 := congrFun ht 2
  refine ⟨t, flush0_5 t, ?_⟩
  rw [mem_blk5]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 512 ≤ (i 1).val ∧ (i 1).val < win0_5.index t (1 : Fin 3) * 512 + 512; omega
  | ⟨2, _⟩ => show win0_5.index t (2 : Fin 3) * 2048 ≤ (i 2).val ∧ (i 2).val < win0_5.index t (2 : Fin 3) * 2048 + 2048; omega

/-- Every index of the output array likewise. -/
theorem cover4 (i : S32x2048x64.Idx) :
    ∃ t : Fin cfg0.N, (cfg0.win 4).flush t = true ∧ i ∈ ((cfg0.win 4).blk t).view.set := by
  have hi0 : (i 0).val < 32 := (i 0).isLt
  have hi1 : (i 1).val < 2048 := (i 1).isLt
  have hi2 : (i 2).val < 64 := (i 2).isLt
  obtain ⟨t, ht⟩ := idx_onto ⟨(i 0).val, hi0⟩ ⟨(i 1).val / 512, by omega⟩
  have q0 : win0_5.index t (0 : Fin 3) = (i 0).val := congrFun ht 0
  have q1 : win0_5.index t (1 : Fin 3) = (i 1).val / 512 := congrFun ht 1
  obtain ⟨_, _, _, e0, e1, e2, _⟩ := idx_facts t
  refine ⟨t, flush0_4 t, ?_⟩
  rw [mem_blk4]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 512 ≤ (i 1).val ∧ (i 1).val < win0_4.index t (1 : Fin 3) * 512 + 512; omega
  | ⟨2, _⟩ => show win0_4.index t (2 : Fin 3) * 64 ≤ (i 2).val ∧ (i 2).val < win0_4.index t (2 : Fin 3) * 64 + 64; omega

/-- The softmax array after the run. -/
theorem final5 (c : Dev nD) : (dats m 0 c).arrAt 5 cfg0.N = Cert.Attn.attnArrK (Qa m c) (Ka m c) (Ma m c) :=
  (dats m 0 c).arrAt_eq_of_cover 5 (Cert.Attn.attnArrK (Qa m c) (Ka m c) (Ma m c)) (fun t _ => flushed5_eq m c t) cover5

/-- The output array after the run. -/
theorem final4 (c : Dev nD) : (dats m 0 c).arrAt 4 cfg0.N = Cert.Attn.outArrK (Qa m c) (Ka m c) (Va m c) (Ma m c) :=
  (dats m 0 c).arrAt_eq_of_cover 4 (Cert.Attn.outArrK (Qa m c) (Ka m c) (Va m c) (Ma m c)) (fun t _ => flushed4_eq m c t) cover4

/-! ## The run, read -/

/-- The run, read: the output array and the softmax array at the specification's functions of the four arguments,
    the arguments unchanged. -/
theorem run : θ_run defs (onTc (τ := τ) (main (F := Ideal))) ⟨m, fun _ => 0, ρ⟩ fun r => ∀ c : Dev nD,
      r.2.mem ((c : Thread nD τ).loc main_v1_0) = Cert.Attn.outArrK (m ((c : Thread nD τ).loc main_arg0)) (m ((c : Thread nD τ).loc main_arg1)) (m ((c : Thread nD τ).loc main_arg2)) (m ((c : Thread nD τ).loc main_arg3))
      ∧ r.2.mem ((c : Thread nD τ).loc main_v1_1) = Cert.Attn.attnArrK (m ((c : Thread nD τ).loc main_arg0)) (m ((c : Thread nD τ).loc main_arg1)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final4 m c), (h c).2.1.trans (final5 m c), (h c).2.2⟩)
    (run_blocks m ρ)

end Cert.KernelIdeal.AttnValue

end
-- ==== Proof.lean ====
/-
  Masked scaled dot-product attention, one 512-row query tile per grid point, against the jnp reference.

  Per query row both programs compute the scores s k = (q · k_k) / 8 with -∞ at masked keys, μ = max s,
  p k = exp (s k - μ) and ℓ = Σ p k. The kernel multiplies by the reciprocal 1/ℓ formed once per row — softmax entry
  p k · (1/ℓ), output (Σ_k p k · v k) · (1/ℓ) — where the reference divides each entry, p k / ℓ, and contracts the
  divided row with v. On the extended reals the two agree as soon as ℓ is a nonzero real and the values are real:
  that holds when q, k, v are finite and the row has a key that is not masked out (then μ is real, p takes the value
  1 at a maximal key, so ℓ ≥ 1). On a row with every key masked ℓ = 0 and the reference's 0 / 0 has no value; the
  precondition keeps every row off that case. The kernel's mask fill is the named -∞; a scale by 1/8 is a division
  by 8; a matmul into a zero accumulator is the host's contraction; a change of float format is the identity.

  Proof/Spec.lean names the row functions in both forms, Proof/RowLaw.lean proves them equal, Proof/KernelArr.lean
  reads the kernel's two result arrays as the reciprocal-first form, Proof/RefArr.lean the reference's stages as the
  divided form, Proof/PreDecode.lean reads the precondition.
-/
import proofs.«428668_j5308579578425_3_alg».proof.Defs
import proofs.«428668_j5308579578425_3_alg».proof.Proof.Gen.Kernel
import proofs.«428668_j5308579578425_3_alg».proof.Proof.Gen.Kernel.Frame
import proofs.«428668_j5308579578425_3_alg».proof.Proof.Gen.KernelIdeal
import proofs.«428668_j5308579578425_3_alg».proof.Proof.Gen.KernelIdeal.Frame
import proofs.«428668_j5308579578425_3_alg».proof.Proof.Gen.KernelIdeal.Value
import proofs.«428668_j5308579578425_3_alg».proof.Proof.Gen.ReferenceIdeal
import proofs.«428668_j5308579578425_3_alg».proof.Proof.Gen.ReferenceIdeal.Run
import proofs.«428668_j5308579578425_3_alg».proof.Proof.Gen.ReferenceIdeal.Read
import proofs.«428668_j5308579578425_3_alg».proof.Proof.Gen.Pre_finite_inputs
import proofs.«428668_j5308579578425_3_alg».proof.Proof.Spec
import proofs.«428668_j5308579578425_3_alg».proof.Proof.RowLaw
import proofs.«428668_j5308579578425_3_alg».proof.Proof.RefArr
import proofs.«428668_j5308579578425_3_alg».proof.Proof.PreDecode
import proofs.«428668_j5308579578425_3_alg».proof.Proof.KernelArr
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The one ledger entry: the mask fill, a finite stand-in, is named -∞. -/
theorem preserves : Cert.preserves_Kernel_KernelIdeal :=
  IdealRules.named_const.statement Cert.KernelIdeal.κ "neg_big" .f32 0xFF333332#32 ⊥ rfl

/-- Both runs end with the output and the softmax at the reciprocal-first form of the arguments: the kernel's by its
    blocks, the reference's by its stages (the divided form) and the row law, whose hypotheses the precondition gives. -/
theorem algebraic : Cert.algebraic_KernelIdeal_ReferenceIdeal := by
  intro m ρ m' ρ' hpre hagree
  refine ⟨_, _, Cert.KernelIdeal.AttnValue.run m ρ, ?_⟩
  refine (θ_run Cert.ReferenceIdeal.defs _ _).mono (fun _ h c => ?_) (Cert.ReferenceIdeal.Value.run (F := Ideal) m' ρ')
  obtain ⟨hQ, hK, hV, hM⟩ := Cert.Attn.of_pre _ _ _ _ (hpre c)
  refine ⟨(h c).1.trans ?_, (h c).2.1.trans ?_, (h c).2.2⟩
  · rw [Cert.ReferenceIdeal.Read.val_main_v15_eq, Cert.ReferenceIdeal.AttnValue.v15_eq,
      (hagree c).1, (hagree c).2.1, (hagree c).2.2.1, (hagree c).2.2.2]
    exact (Cert.Attn.outArr_eq _ _ _ _ hQ hK hV hM).symm
  · rw [Cert.ReferenceIdeal.Read.val_main_v14_eq, Cert.ReferenceIdeal.AttnValue.v14_eq,
      (hagree c).1, (hagree c).2.1, (hagree c).2.2.2]
    exact (Cert.Attn.attnArr_eq _ _ _ hQ hK hM).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
